-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000x3 : Shape := ⟨2, ![640000, 3]⟩
abbrev S640000x1 : Shape := ⟨2, ![640000, 1]⟩
abbrev S640000 : Shape := ⟨1, ![640000]⟩
abbrev S640000x128 : Shape := ⟨2, ![640000, 128]⟩
abbrev S385x128 : Shape := ⟨2, ![385, 128]⟩
abbrev S128 : Shape := ⟨1, ![128]⟩
abbrev S128x128 : Shape := ⟨2, ![128, 128]⟩
abbrev S128x1 : Shape := ⟨2, ![128, 1]⟩
abbrev S384x128 : Shape := ⟨2, ![384, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000x3 : S_.BroadcastsInDim S640000x3 (![] : Fin 0 → Fin S640000x3.rank)
  reducesTo_S640000x3_S_d0_1 : S640000x3.ReducesTo [0, 1] S_
  bcast_S_S640000x1 : S_.BroadcastsInDim S640000x1 (![] : Fin 0 → Fin S640000x1.rank)
  reducesTo_S640000x1_S_d0_1 : S640000x1.ReducesTo [0, 1] S_
  bcast_S_S640000x128 : S_.BroadcastsInDim S640000x128 (![] : Fin 0 → Fin S640000x128.rank)
  reducesTo_S640000x128_S_d0_1 : S640000x128.ReducesTo [0, 1] S_
  bcast_S_S385x128 : S_.BroadcastsInDim S385x128 (![] : Fin 0 → Fin S385x128.rank)
  reducesTo_S385x128_S_d0_1 : S385x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S384x128 : S_.BroadcastsInDim S384x128 (![] : Fin 0 → Fin S384x128.rank)
  reducesTo_S384x128_S_d0_1 : S384x128.ReducesTo [0, 1] S_
  bcast_S_S640000 : S_.BroadcastsInDim S640000 (![] : Fin 0 → Fin S640000.rank)
  reducesTo_S640000_S_d0 : S640000.ReducesTo [0] S_

variable [Facts]

def fn_part5 {F : FTy → Type} [FloatOps F] (main_arg4 : IVec S640000 32) (main_v82 : IVec S_ 1) (main_v84 : IVec S640000 1) : IVec S_ 1 :=
  let main_c_33 : IVec S_ 1 := constantI S_ 1 1#1
  let main_v85 : IVec S_ 1 := (fun x v => Host.reduce IntOp.andi x v reducesTo_S640000_S_d0 h_S_) main_v84 main_c_33
  let main_v86 : IVec S_ 1 := andi main_v82 main_v85
  let main_c_34 : IVec S_ 32 := constantI S_ 32 0#32
  let main_v87 : IVec S640000 32 := broadcastInDim S640000 ![] bcast_S_S640000 main_c_34
  let main_v88 : IVec S640000 1 := cmpi .sge main_arg4 main_v87
  let main_c_35 : IVec S_ 1 := constantI S_ 1 1#1
  let main_v89 : IVec S_ 1 := (fun x v => Host.reduce IntOp.andi x v reducesTo_S640000_S_d0 h_S_) main_v88 main_c_35
  let main_v90 : IVec S_ 1 := andi main_v86 main_v89
  let main_c_36 : IVec S_ 32 := constantI S_ 32 50000#32
  let main_v91 : IVec S640000 32 := broadcastInDim S640000 ![] bcast_S_S640000 main_c_36
  let main_v92 : IVec S640000 1 := cmpi .slt main_arg4 main_v91
  let main_c_37 : IVec S_ 1 := constantI S_ 1 1#1
  let main_v93 : IVec S_ 1 := (fun x v => Host.reduce IntOp.andi x v reducesTo_S640000_S_d0 h_S_) main_v92 main_c_37
  let main_v94 : IVec S_ 1 := andi main_v90 main_v93
  main_v94

def fn_part4 {F : FTy → Type} [FloatOps F] (main_arg3 : IVec S640000 32) (main_arg4 : IVec S640000 32) (main_arg16 : FVec F S128x128 .f32) (main_arg17 : FVec F S128 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_c_30 : IVec S_ 32 := constantI S_ 32 0#32
  let main_v79 : IVec S640000 32 := broadcastInDim S640000 ![] bcast_S_S640000 main_c_30
  let main_v80 : IVec S640000 1 := cmpi .sge main_arg3 main_v79
  let main_c_31 : IVec S_ 1 := constantI S_ 1 1#1
  let main_v81 : IVec S_ 1 := (fun x v => Host.reduce IntOp.andi x v reducesTo_S640000_S_d0 h_S_) main_v80 main_c_31
  let main_v82 : IVec S_ 1 := andi main_v78 main_v81
  let main_c_32 : IVec S_ 32 := constantI S_ 32 50000#32
  let main_v83 : IVec S640000 32 := broadcastInDim S640000 ![] bcast_S_S640000 main_c_32
  let main_v84 : IVec S640000 1 := cmpi .slt main_arg3 main_v83
  fn_part5 (F := F) main_arg4 main_v82 main_v84

def fn_part3 {F : FTy → Type} [FloatOps F] (main_arg3 : IVec S640000 32) (main_arg4 : IVec S640000 32) (main_arg13 : FVec F S128x1 .f32) (main_arg14 : FVec F S384x128 .f32) (main_arg15 : FVec F S128 .f32) (main_arg16 : FVec F S128x128 .f32) (main_arg17 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg13
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S384x128 .f32 := Host.absf main_arg14
  let main_cst_22 : FVec F S_ .f32 := constant S_ .f32 0x7F800000#32
  let main_v60 : FVec F S384x128 .f32 := broadcastInDim S384x128 ![] bcast_S_S384x128 main_cst_22
  let main_v61 : IVec S384x128 1 := cmpf .olt main_v59 main_v60
  let main_c_23 : IVec S_ 1 := constantI S_ 1 1#1
  let main_v62 : IVec S_ 1 := (fun x v => Host.reduce IntOp.andi x v reducesTo_S384x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg3 main_arg4 main_arg16 main_arg17 main_v63 main_v67

def fn_part2 {F : FTy → Type} [FloatOps F] (main_arg3 : IVec S640000 32) (main_arg4 : IVec S640000 32) (main_arg9 : FVec F S128x128 .f32) (main_arg10 : FVec F S128 .f32) (main_arg11 : FVec F S128x128 .f32) (main_arg12 : FVec F S128 .f32) (main_arg13 : FVec F S128x1 .f32) (main_arg14 : FVec F S384x128 .f32) (main_arg15 : FVec F S128 .f32) (main_arg16 : FVec F S128x128 .f32) (main_arg17 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg3 main_arg4 main_arg13 main_arg14 main_arg15 main_arg16 main_arg17 main_v48 main_v49 main_v50

def fn_part1 {F : FTy → Type} [FloatOps F] (main_arg3 : IVec S640000 32) (main_arg4 : IVec S640000 32) (main_arg6 : FVec F S50000x128 .f32) (main_arg7 : FVec F S385x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_arg14 : FVec F S384x128 .f32) (main_arg15 : FVec F S128 .f32) (main_arg16 : FVec F S128x128 .f32) (main_arg17 : FVec F S128 .f32) (main_v13 : IVec S_ 1) (main_v16 : IVec S640000x128 1) : IVec S_ 1 :=
  let main_c_5 : IVec S_ 1 := constantI S_ 1 1#1
  let main_v17 : IVec S_ 1 := (fun x v => Host.reduce IntOp.andi x v reducesTo_S640000x128_S_d0_1 h_S_) main_v16 main_c_5
  let main_v18 : IVec S_ 1 := andi main_v13 main_v17
  let main_v19 : FVec F S50000x128 .f32 := Host.absf main_arg6
  let main_cst_6 : FVec F S_ .f32 := constant S_ .f32 0x7F800000#32
  let main_v20 : FVec F S50000x128 .f32 := broadcastInDim S50000x128 ![] bcast_S_S50000x128 main_cst_6
  let main_v21 : IVec S50000x128 1 := cmpf .olt main_v19 main_v20
  let main_c_7 : IVec S_ 1 := constantI S_ 1 1#1
  let main_v22 : IVec S_ 1 := (fun x v => Host.reduce IntOp.andi x v reducesTo_S50000x128_S_d0_1 h_S_) main_v21 main_c_7
  let main_v23 : IVec S_ 1 := andi main_v18 main_v22
  let main_v24 : FVec F S385x128 .f32 := Host.absf main_arg7
  let main_cst_8 : FVec F S_ .f32 := constant S_ .f32 0x7F800000#32
  let main_v25 : FVec F S385x128 .f32 := broadcastInDim S385x128 ![] bcast_S_S385x128 main_cst_8
  let main_v26 : IVec S385x128 1 := cmpf .olt main_v24 main_v25
  let main_c_9 : IVec S_ 1 := constantI S_ 1 1#1
  let main_v27 : IVec S_ 1 := (fun x v => Host.reduce IntOp.andi x v reducesTo_S385x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg3 main_arg4 main_arg9 main_arg10 main_arg11 main_arg12 main_arg13 main_arg14 main_arg15 main_arg16 main_arg17 main_v33

def fn {F : FTy → Type} [FloatOps F] (main_arg0 : FVec F S50000x128 .f32) (main_arg1 : FVec F S640000x3 .f32) (main_arg2 : FVec F S640000x1 .f32) (main_arg3 : IVec S640000 32) (main_arg4 : IVec S640000 32) (main_arg5 : FVec F S640000x128 .f32) (main_arg6 : FVec F S50000x128 .f32) (main_arg7 : FVec F S385x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_arg14 : FVec F S384x128 .f32) (main_arg15 : FVec F S128 .f32) (main_arg16 : FVec F S128x128 .f32) (main_arg17 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000x3 .f32 := Host.absf main_arg1
  let main_cst_0 : FVec F S_ .f32 := constant S_ .f32 0x7F800000#32
  let main_v5 : FVec F S640000x3 .f32 := broadcastInDim S640000x3 ![] bcast_S_S640000x3 main_cst_0
  let main_v6 : IVec S640000x3 1 := cmpf .olt main_v4 main_v5
  let main_c_1 : IVec S_ 1 := constantI S_ 1 1#1
  let main_v7 : IVec S_ 1 := (fun x v => Host.reduce IntOp.andi x v reducesTo_S640000x3_S_d0_1 h_S_) main_v6 main_c_1
  let main_v8 : IVec S_ 1 := andi main_v3 main_v7
  let main_v9 : FVec F S640000x1 .f32 := Host.absf main_arg2
  let main_cst_2 : FVec F S_ .f32 := constant S_ .f32 0x7F800000#32
  let main_v10 : FVec F S640000x1 .f32 := broadcastInDim S640000x1 ![] bcast_S_S640000x1 main_cst_2
  let main_v11 : IVec S640000x1 1 := cmpf .olt main_v9 main_v10
  let main_c_3 : IVec S_ 1 := constantI S_ 1 1#1
  let main_v12 : IVec S_ 1 := (fun x v => Host.reduce IntOp.andi x v reducesTo_S640000x1_S_d0_1 h_S_) main_v11 main_c_3
  let main_v13 : IVec S_ 1 := andi main_v8 main_v12
  let main_v14 : FVec F S640000x128 .f32 := Host.absf main_arg5
  let main_cst_4 : FVec F S_ .f32 := constant S_ .f32 0x7F800000#32
  let main_v15 : FVec F S640000x128 .f32 := broadcastInDim S640000x128 ![] bcast_S_S640000x128 main_cst_4
  let main_v16 : IVec S640000x128 1 := cmpf .olt main_v14 main_v15
  fn_part1 (F := F) main_arg3 main_arg4 main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S640000x3 : Shape := ⟨2, ![640000, 3]⟩
abbrev S640000x1 : Shape := ⟨2, ![640000, 1]⟩
abbrev S640000 : Shape := ⟨1, ![640000]⟩
abbrev S640000x128 : Shape := ⟨2, ![640000, 128]⟩
abbrev S385x128 : Shape := ⟨2, ![385, 128]⟩
abbrev S128 : Shape := ⟨1, ![128]⟩
abbrev S128x128 : Shape := ⟨2, ![128, 128]⟩
abbrev S128x1 : Shape := ⟨2, ![128, 1]⟩
abbrev S384x128 : Shape := ⟨2, ![384, 128]⟩
abbrev S_ : Shape := ⟨0, ![]⟩
abbrev S1 : Shape := ⟨1, ![1]⟩
abbrev S1x1 : Shape := ⟨2, ![1, 1]⟩
abbrev S3200x128 : Shape := ⟨2, ![3200, 128]⟩
abbrev S3200x1 : Shape := ⟨2, ![3200, 1]⟩
abbrev S3200x385 : Shape := ⟨2, ![3200, 385]⟩
abbrev S1x128 : Shape := ⟨2, ![1, 128]⟩
abbrev S50000x3 : Shape := ⟨2, ![50000, 3]⟩
abbrev S2000x128 : Shape := ⟨2, ![2000, 128]⟩
abbrev S2000x384 : Shape := ⟨2, ![2000, 384]⟩

abbrev nBuf : Space → Nat
  | .hbm => 77
  | .vmem => 31
  | .smem => 0
  | _ => 0

abbrev bufTy : (tb : Table) → Fin (tcTables nBuf tb) → BufTy
  | .hbm, ⟨0, _⟩ => ⟨S50000x128, .f32⟩
  | .hbm, ⟨1, _⟩ => ⟨S640000x3, .f32⟩
  | .hbm, ⟨2, _⟩ => ⟨S640000x1, .f32⟩
  | .hbm, ⟨3, _⟩ => ⟨S640000, .i32⟩
  | .hbm, ⟨4, _⟩ => ⟨S640000, .i32⟩
  | .hbm, ⟨5, _⟩ => ⟨S640000x128, .f32⟩
  | .hbm, ⟨6, _⟩ => ⟨S50000x128, .f32⟩
  | .hbm, ⟨7, _⟩ => ⟨S385x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x1, .f32⟩
  | .hbm, ⟨14, _⟩ => ⟨S384x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S1, .i32⟩
  | .hbm, ⟨27, _⟩ => ⟨S_, .i32⟩
  | .hbm, ⟨28, _⟩ => ⟨S640000x1, .i32⟩
  | .hbm, ⟨29, _⟩ => ⟨S640000x1, .i1⟩
  | .hbm, ⟨30, _⟩ => ⟨S1x1, .i32⟩
  | .hbm, ⟨31, _⟩ => ⟨S640000x1, .i32⟩
  | .hbm, ⟨32, _⟩ => ⟨S640000x1, .i1⟩
  | .hbm, ⟨33, _⟩ => ⟨S640000x1, .i1⟩
  | .hbm, ⟨34, _⟩ => ⟨S_, .i1⟩
  | .hbm, ⟨35, _⟩ => ⟨S640000, .i1⟩
  | .hbm, ⟨36, _⟩ => ⟨S640000x128, .f32⟩
  | .hbm, ⟨37, _⟩ => ⟨S640000x128, .i1⟩
  | .hbm, ⟨38, _⟩ => ⟨S_, .f32⟩
  | .hbm, ⟨39, _⟩ => ⟨S640000x128, .f32⟩
  | .hbm, ⟨40, _⟩ => ⟨S640000x128, .f32⟩
  | .hbm, ⟨41, _⟩ => ⟨S_, .i32⟩
  | .hbm, ⟨42, _⟩ => ⟨S640000, .i32⟩
  | .hbm, ⟨43, _⟩ => ⟨S640000, .i1⟩
  | .hbm, ⟨44, _⟩ => ⟨S_, .i32⟩
  | .hbm, ⟨45, _⟩ => ⟨S640000, .i32⟩
  | .hbm, ⟨46, _⟩ => ⟨S640000, .i32⟩
  | .hbm, ⟨47, _⟩ => ⟨S640000, .i32⟩
  | .hbm, ⟨48, _⟩ => ⟨S640000x1, .i32⟩
  | .hbm, ⟨49, _⟩ => ⟨S1, .i32⟩
  | .hbm, ⟨50, _⟩ => ⟨S_, .i32⟩
  | .hbm, ⟨51, _⟩ => ⟨S640000x1, .i32⟩
  | .hbm, ⟨52, _⟩ => ⟨S640000x1, .i1⟩
  | .hbm, ⟨53, _⟩ => ⟨S1x1, .i32⟩
  | .hbm, ⟨54, _⟩ => ⟨S640000x1, .i32⟩
  | .hbm, ⟨55, _⟩ => ⟨S640000x1, .i1⟩
  | .hbm, ⟨56, _⟩ => ⟨S640000x1, .i1⟩
  | .hbm, ⟨57, _⟩ => ⟨S_, .i1⟩
  | .hbm, ⟨58, _⟩ => ⟨S640000, .i1⟩
  | .hbm, ⟨59, _⟩ => ⟨S640000x128, .f32⟩
  | .hbm, ⟨60, _⟩ => ⟨S640000x128, .i1⟩
  | .hbm, ⟨61, _⟩ => ⟨S_, .f32⟩
  | .hbm, ⟨62, _⟩ => ⟨S640000x128, .f32⟩
  | .hbm, ⟨63, _⟩ => ⟨S640000x128, .f32⟩
  | .hbm, ⟨64, _⟩ => ⟨S640000x128, .f32⟩
  | .hbm, ⟨65, _⟩ => ⟨S640000x1, .f32⟩
  | .hbm, ⟨66, _⟩ => ⟨S640000x3, .f32⟩
  | .hbm, ⟨67, _⟩ => ⟨S640000x3, .f32⟩
  | .hbm, ⟨68, _⟩ => ⟨S_, .f32⟩
  | .hbm, ⟨69, _⟩ => ⟨S50000x3, .f32⟩
  | .hbm, ⟨70, _⟩ => ⟨S640000x1, .i32⟩
  | .hbm, ⟨71, _⟩ => ⟨S50000x3, .f32⟩
  | .hbm, ⟨72, _⟩ => ⟨S_, .f32⟩
  | .hbm, ⟨73, _⟩ => ⟨S50000x128, .f32⟩
  | .hbm, ⟨74, _⟩ => ⟨S640000x1, .i32⟩
  | .hbm, ⟨75, _⟩ => ⟨S50000x128, .f32⟩
  | .hbm, ⟨76, _⟩ => ⟨S50000x128, .f32⟩
  | .local _ .vmem, ⟨0, _⟩ => ⟨S3200x128, .f32⟩
  | .local _ .vmem, ⟨1, _⟩ => ⟨S3200x128, .f32⟩
  | .local _ .vmem, ⟨2, _⟩ => ⟨S3200x128, .f32⟩
  | .local _ .vmem, ⟨3, _⟩ => ⟨S3200x128, .f32⟩
  | .local _ .vmem, ⟨4, _⟩ => ⟨S3200x1, .f32⟩
  | .local _ .vmem, ⟨5, _⟩ => ⟨S3200x1, .f32⟩
  | .local _ .vmem, ⟨6, _⟩ => ⟨S3200x128, .f32⟩
  | .local _ .vmem, ⟨7, _⟩ => ⟨S3200x128, .f32⟩
  | .local _ .vmem, ⟨8, _⟩ => ⟨S385x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S128x1, .f32⟩
  | .local _ .vmem, ⟨15, _⟩ => ⟨S3200x128, .f32⟩
  | .local _ .vmem, ⟨16, _⟩ => ⟨S3200x128, .f32⟩
  | .local _ .vmem, ⟨17, _⟩ => ⟨S3200x1, .f32⟩
  | .local _ .vmem, ⟨18, _⟩ => ⟨S3200x1, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S384x128, .f32⟩
  | .local _ .vmem, ⟨26, _⟩ => ⟨S128, .f32⟩
  | .local _ .vmem, ⟨27, _⟩ => ⟨S128x128, .f32⟩
  | .local _ .vmem, ⟨28, _⟩ => ⟨S128, .f32⟩
  | .local _ .vmem, ⟨29, _⟩ => ⟨S2000x128, .f32⟩
  | .local _ .vmem, ⟨30, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v0 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v1 : Ref sig .tc := ⟨.hbm, 63, rfl⟩
abbrev main_v2_0 : Ref sig .tc := ⟨.hbm, 64, rfl⟩
abbrev main_v2_1 : Ref sig .tc := ⟨.hbm, 65, rfl⟩
abbrev main_v3 : Ref sig .tc := ⟨.hbm, 66, rfl⟩
abbrev main_v4 : Ref sig .tc := ⟨.hbm, 67, rfl⟩
abbrev main_cst : Ref sig .tc := ⟨.hbm, 68, rfl⟩
abbrev main_v5 : Ref sig .tc := ⟨.hbm, 69, rfl⟩
abbrev main_v6 : Ref sig .tc := ⟨.hbm, 70, rfl⟩
abbrev main_v7 : Ref sig .tc := ⟨.hbm, 71, rfl⟩
abbrev main_cst_0 : Ref sig .tc := ⟨.hbm, 72, rfl⟩
abbrev main_v8 : Ref sig .tc := ⟨.hbm, 73, rfl⟩
abbrev main_v9 : Ref sig .tc := ⟨.hbm, 74, rfl⟩
abbrev main_v10 : Ref sig .tc := ⟨.hbm, 75, rfl⟩
abbrev main_v11 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg7_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem7_1 : DmaSem sig := 30

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3200x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S385x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S3200x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S3200x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S384x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  bitsLt_bf16_f32 : FTy.bits .bf16 < FTy.bits .f32
  inb_S3200x1_S3200x1_0_0 : ∀ a, (![0, 0] : Fin 2 → Nat) a + S3200x1.size a ≤ S3200x1.size a
  h_S3200x1 : 0 < S3200x1.numel
  concatenates_S3200x128_S3200x128_S3200x1_S3200x128_S3200x385_d1 : Shape.Concatenates [S3200x128, S3200x128, S3200x1, S3200x128] S3200x385 1
  inb_S385x128_S385x128_0_0 : ∀ a, (![0, 0] : Fin 2 → Nat) a + S385x128.size a ≤ S385x128.size a
  h_S385x128 : 0 < S385x128.numel
  inb_S128_S128_0 : ∀ a, (![0] : Fin 1 → Nat) a + S128.size a ≤ S128.size a
  h_S128 : 0 < S128.numel
  shapeCasts_S128_S1x128 : S128.ShapeCasts S1x128
  broadcasts_S1x128_S3200x128 : S1x128.Broadcasts S3200x128
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  bcast_S640000x1_S640000x3_0_1 : S640000x1.BroadcastsInDim S640000x3 (![0, 1] : Fin 2 → Fin S640000x3.rank)
  bcast_S_S50000x3 : S_.BroadcastsInDim S50000x3 (![] : Fin 0 → Fin S50000x3.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  concatenates_S2000x128_S2000x128_S2000x128_S2000x384_d1 : Shape.Concatenates [S2000x128, S2000x128, S2000x128] S2000x384 1
  inb_S384x128_S384x128_0_0 : ∀ a, (![0, 0] : Fin 2 → Nat) a + S384x128.size a ≤ S384x128.size a
  h_S384x128 : 0 < S384x128.numel
  broadcasts_S1x128_S2000x128 : S1x128.Broadcasts S2000x128
  gather_S50000x128_S640000x1_S640000x128_1_0_n_n_0_1_1128_wf : GatherDims.WF S50000x128 S640000x1 S640000x128 [1] [0] [] [0] [] 1 ![1, 128]
  dot_S3200x385_S385x128_S3200x128_1_0_0_1_n_n_wf : DotDims.WF S3200x385 S385x128 S3200x128 [1] [0] [0] [1] [] []
  dot_S3200x128_S128x128_S3200x128_1_0_0_1_n_n_wf : DotDims.WF S3200x128 S128x128 S3200x128 [1] [0] [0] [1] [] []
  dot_S3200x128_S128x1_S3200x1_1_0_0_1_n_n_wf : DotDims.WF S3200x128 S128x1 S3200x1 [1] [0] [0] [1] [] []
  scatter_S50000x3_S640000x1_S640000x3_1_0_0_1_wf : ScatterDims.WF S50000x3 S640000x1 S640000x3 [1] [0] [0] 1
  scatter_S50000x128_S640000x1_S640000x128_1_0_0_1_wf : ScatterDims.WF S50000x128 S640000x1 S640000x128 [1] [0] [0] 1
  dot_S2000x384_S384x128_S2000x128_1_0_0_1_n_n_wf : DotDims.WF S2000x384 S384x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S640000x128.size a
  hwx0_0 : ∀ i : grid0.Coords, EltTy.bits .f32 = 32 ∨ (Rect.block (s := S640000x128) S3200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S640000x128.size a
  hwx0_1 : ∀ i : grid0.Coords, EltTy.bits .f32 = 32 ∨ (Rect.block (s := S640000x128) S3200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x1.size a ≤ S640000x1.size a
  hwx0_2 : ∀ i : grid0.Coords, EltTy.bits .f32 = 32 ∨ (Rect.block (s := S640000x1) S3200x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3200x128.size a ≤ S640000x128.size a
  hwx0_3 : ∀ i : grid0.Coords, EltTy.bits .f32 = 32 ∨ (Rect.block (s := S640000x128) S3200x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S385x128.size a ≤ S385x128.size a
  hwx0_4 : ∀ i : grid0.Coords, EltTy.bits .f32 = 32 ∨ (Rect.block (s := S385x128) S385x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x1.size a ≤ S128x1.size a
  hwx0_10 : ∀ i : grid0.Coords, EltTy.bits .f32 = 32 ∨ (Rect.block (s := S128x1) S128x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S3200x128.size a ≤ S640000x128.size a
  hwx0_11 : ∀ i : grid0.Coords, EltTy.bits .f32 = 32 ∨ (Rect.block (s := S640000x128) S3200x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S3200x1.size a ≤ S640000x1.size a
  hwx0_12 : ∀ i : grid0.Coords, EltTy.bits .f32 = 32 ∨ (Rect.block (s := S640000x1) S3200x1.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S384x128.size a ≤ S384x128.size a
  hwx1_3 : ∀ i : grid1.Coords, EltTy.bits .f32 = 32 ∨ (Rect.block (s := S384x128) S384x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S3200x385_S385x128_S3200x128_1_0_0_1_n_n : DotDims S3200x385 S385x128 S3200x128 where
  lhsContracting := [1]
  rhsContracting := [0]
  lhsNonContracting := [0]
  rhsNonContracting := [1]
  lhsBatch := []
  rhsBatch := []
  wf := dot_S3200x385_S385x128_S3200x128_1_0_0_1_n_n_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def dot_S3200x128_S128x1_S3200x1_1_0_0_1_n_n : DotDims S3200x128 S128x1 S3200x1 where
  lhsContracting := [1]
  rhsContracting := [0]
  lhsNonContracting := [0]
  rhsNonContracting := [1]
  lhsBatch := []
  rhsBatch := []
  wf := dot_S3200x128_S128x1_S3200x1_1_0_0_1_n_n_wf
def scatter_S50000x3_S640000x1_S640000x3_1_0_0_1 : ScatterDims S50000x3 S640000x1 S640000x3 where
  updateWindowDims := [1]
  insertedWindowDims := [0]
  scatterDimsToOperandDims := [0]
  indexVectorDim := 1
  wf := scatter_S50000x3_S640000x1_S640000x3_1_0_0_1_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S2000x384_S384x128_S2000x128_1_0_0_1_n_n : DotDims S2000x384 S384x128 S2000x128 where
  lhsContracting := [1]
  rhsContracting := [0]
  lhsNonContracting := [0]
  rhsNonContracting := [1]
  lhsBatch := []
  rhsBatch := []
  wf := dot_S2000x384_S384x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v0) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3200x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S3200x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S385x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg13) S128x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v2_0) S3200x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v2_1) S3200x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg14) S384x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg15) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg16) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg17) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v11) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S640000x3 : Shape := ⟨2, ![640000, 3]⟩
abbrev S640000x1 : Shape := ⟨2, ![640000, 1]⟩
abbrev S640000 : Shape := ⟨1, ![640000]⟩
abbrev S640000x128 : Shape := ⟨2, ![640000, 128]⟩
abbrev S385x128 : Shape := ⟨2, ![385, 128]⟩
abbrev S128 : Shape := ⟨1, ![128]⟩
abbrev S128x128 : Shape := ⟨2, ![128, 128]⟩
abbrev S128x1 : Shape := ⟨2, ![128, 1]⟩
abbrev S384x128 : Shape := ⟨2, ![384, 128]⟩
abbrev S_ : Shape := ⟨0, ![]⟩
abbrev S640000x385 : Shape := ⟨2, ![640000, 385]⟩
abbrev S1x128 : Shape := ⟨2, ![1, 128]⟩
abbrev S50000x3 : Shape := ⟨2, ![50000, 3]⟩
abbrev S50000x384 : Shape := ⟨2, ![50000, 384]⟩

abbrev nBuf : Space → Nat
  | .hbm => 124
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S640000x3, .f32⟩
  | .hbm, ⟨2, _⟩ => ⟨S640000x1, .f32⟩
  | .hbm, ⟨3, _⟩ => ⟨S640000, .i32⟩
  | .hbm, ⟨4, _⟩ => ⟨S640000, .i32⟩
  | .hbm, ⟨5, _⟩ => ⟨S640000x128, .f32⟩
  | .hbm, ⟨6, _⟩ => ⟨S50000x128, .f32⟩
  | .hbm, ⟨7, _⟩ => ⟨S385x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x1, .f32⟩
  | .hbm, ⟨14, _⟩ => ⟨S384x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .f32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000x128, .f32⟩
  | .hbm, ⟨36, _⟩ => ⟨S640000x385, .f32⟩
  | .hbm, ⟨37, _⟩ => ⟨S640000x128, .f32⟩
  | .hbm, ⟨38, _⟩ => ⟨S1x128, .f32⟩
  | .hbm, ⟨39, _⟩ => ⟨S640000x128, .f32⟩
  | .hbm, ⟨40, _⟩ => ⟨S640000x128, .f32⟩
  | .hbm, ⟨41, _⟩ => ⟨S640000x128, .f32⟩
  | .hbm, ⟨42, _⟩ => ⟨S640000x128, .f32⟩
  | .hbm, ⟨43, _⟩ => ⟨S_, .f32⟩
  | .hbm, ⟨44, _⟩ => ⟨S640000x128, .f32⟩
  | .hbm, ⟨45, _⟩ => ⟨S640000x128, .f32⟩
  | .hbm, ⟨46, _⟩ => ⟨S_, .f32⟩
  | .hbm, ⟨47, _⟩ => ⟨S640000x128, .f32⟩
  | .hbm, ⟨48, _⟩ => ⟨S640000x128, .f32⟩
  | .hbm, ⟨49, _⟩ => ⟨S640000x128, .f32⟩
  | .hbm, ⟨50, _⟩ => ⟨S640000x128, .f32⟩
  | .hbm, ⟨51, _⟩ => ⟨S1x128, .f32⟩
  | .hbm, ⟨52, _⟩ => ⟨S640000x128, .f32⟩
  | .hbm, ⟨53, _⟩ => ⟨S640000x128, .f32⟩
  | .hbm, ⟨54, _⟩ => ⟨S640000x128, .f32⟩
  | .hbm, ⟨55, _⟩ => ⟨S640000x128, .f32⟩
  | .hbm, ⟨56, _⟩ => ⟨S_, .f32⟩
  | .hbm, ⟨57, _⟩ => ⟨S640000x128, .f32⟩
  | .hbm, ⟨58, _⟩ => ⟨S640000x128, .f32⟩
  | .hbm, ⟨59, _⟩ => ⟨S_, .f32⟩
  | .hbm, ⟨60, _⟩ => ⟨S640000x128, .f32⟩
  | .hbm, ⟨61, _⟩ => ⟨S640000x128, .f32⟩
  | .hbm, ⟨62, _⟩ => ⟨S640000x128, .f32⟩
  | .hbm, ⟨63, _⟩ => ⟨S640000x128, .f32⟩
  | .hbm, ⟨64, _⟩ => ⟨S1x128, .f32⟩
  | .hbm, ⟨65, _⟩ => ⟨S640000x128, .f32⟩
  | .hbm, ⟨66, _⟩ => ⟨S640000x128, .f32⟩
  | .hbm, ⟨67, _⟩ => ⟨S640000x128, .f32⟩
  | .hbm, ⟨68, _⟩ => ⟨S640000x128, .f32⟩
  | .hbm, ⟨69, _⟩ => ⟨S_, .f32⟩
  | .hbm, ⟨70, _⟩ => ⟨S640000x128, .f32⟩
  | .hbm, ⟨71, _⟩ => ⟨S640000x128, .f32⟩
  | .hbm, ⟨72, _⟩ => ⟨S_, .f32⟩
  | .hbm, ⟨73, _⟩ => ⟨S640000x128, .f32⟩
  | .hbm, ⟨74, _⟩ => ⟨S640000x128, .f32⟩
  | .hbm, ⟨75, _⟩ => ⟨S640000x128, .f32⟩
  | .hbm, ⟨76, _⟩ => ⟨S640000x1, .f32⟩
  | .hbm, ⟨77, _⟩ => ⟨S640000x3, .f32⟩
  | .hbm, ⟨78, _⟩ => ⟨S640000x3, .f32⟩
  | .hbm, ⟨79, _⟩ => ⟨S_, .f32⟩
  | .hbm, ⟨80, _⟩ => ⟨S50000x3, .f32⟩
  | .hbm, ⟨81, _⟩ => ⟨S640000x1, .i32⟩
  | .hbm, ⟨82, _⟩ => ⟨S50000x3, .f32⟩
  | .hbm, ⟨83, _⟩ => ⟨S_, .f32⟩
  | .hbm, ⟨84, _⟩ => ⟨S50000x128, .f32⟩
  | .hbm, ⟨85, _⟩ => ⟨S640000x1, .i32⟩
  | .hbm, ⟨86, _⟩ => ⟨S50000x128, .f32⟩
  | .hbm, ⟨87, _⟩ => ⟨S50000x384, .f32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S50000x128, .f32⟩
  | .hbm, ⟨96, _⟩ => ⟨S50000x128, .f32⟩
  | .hbm, ⟨97, _⟩ => ⟨S_, .f32⟩
  | .hbm, ⟨98, _⟩ => ⟨S50000x128, .f32⟩
  | .hbm, ⟨99, _⟩ => ⟨S50000x128, .f32⟩
  | .hbm, ⟨100, _⟩ => ⟨S50000x128, .f32⟩
  | .hbm, ⟨101, _⟩ => ⟨S50000x128, .f32⟩
  | .hbm, ⟨102, _⟩ => ⟨S50000x128, .f32⟩
  | .hbm, ⟨103, _⟩ => ⟨S1x128, .f32⟩
  | .hbm, ⟨104, _⟩ => ⟨S50000x128, .f32⟩
  | .hbm, ⟨105, _⟩ => ⟨S50000x128, .f32⟩
  | .hbm, ⟨106, _⟩ => ⟨S50000x128, .f32⟩
  | .hbm, ⟨107, _⟩ => ⟨S1x128, .f32⟩
  | .hbm, ⟨108, _⟩ => ⟨S50000x128, .f32⟩
  | .hbm, ⟨109, _⟩ => ⟨S50000x128, .f32⟩
  | .hbm, ⟨110, _⟩ => ⟨S50000x128, .f32⟩
  | .hbm, ⟨111, _⟩ => ⟨S50000x128, .f32⟩
  | .hbm, ⟨112, _⟩ => ⟨S_, .f32⟩
  | .hbm, ⟨113, _⟩ => ⟨S50000x128, .f32⟩
  | .hbm, ⟨114, _⟩ => ⟨S50000x128, .f32⟩
  | .hbm, ⟨115, _⟩ => ⟨S_, .f32⟩
  | .hbm, ⟨116, _⟩ => ⟨S50000x128, .f32⟩
  | .hbm, ⟨117, _⟩ => ⟨S50000x128, .f32⟩
  | .hbm, ⟨118, _⟩ => ⟨S50000x128, .f32⟩
  | .hbm, ⟨119, _⟩ => ⟨S50000x128, .f32⟩
  | .hbm, ⟨120, _⟩ => ⟨S1x128, .f32⟩
  | .hbm, ⟨121, _⟩ => ⟨S50000x128, .f32⟩
  | .hbm, ⟨122, _⟩ => ⟨S50000x128, .f32⟩
  | .hbm, ⟨123, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_c_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_call2_v0 : Ref sig .tc := ⟨.hbm, 67, rfl⟩
abbrev main_call2_v1 : Ref sig .tc := ⟨.hbm, 68, rfl⟩
abbrev main_call2_cst : Ref sig .tc := ⟨.hbm, 69, rfl⟩
abbrev main_call2_v2 : Ref sig .tc := ⟨.hbm, 70, rfl⟩
abbrev main_call2_v3 : Ref sig .tc := ⟨.hbm, 71, rfl⟩
abbrev main_call2_cst_0 : Ref sig .tc := ⟨.hbm, 72, rfl⟩
abbrev main_call2_v4 : Ref sig .tc := ⟨.hbm, 73, rfl⟩
abbrev main_call2_v5 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_cst : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_cst_3 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_call3_v0 : Ref sig .tc := ⟨.hbm, 92, rfl⟩
abbrev main_call3_v1 : Ref sig .tc := ⟨.hbm, 93, rfl⟩
abbrev main_call3_cst : Ref sig .tc := ⟨.hbm, 94, rfl⟩
abbrev main_call3_v2 : Ref sig .tc := ⟨.hbm, 95, rfl⟩
abbrev main_call3_v3 : Ref sig .tc := ⟨.hbm, 96, rfl⟩
abbrev main_call3_cst_0 : Ref sig .tc := ⟨.hbm, 97, rfl⟩
abbrev main_call3_v4 : Ref sig .tc := ⟨.hbm, 98, rfl⟩
abbrev main_call3_v5 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_call4_v0 : Ref sig .tc := ⟨.hbm, 110, rfl⟩
abbrev main_call4_v1 : Ref sig .tc := ⟨.hbm, 111, rfl⟩
abbrev main_call4_cst : Ref sig .tc := ⟨.hbm, 112, rfl⟩
abbrev main_call4_v2 : Ref sig .tc := ⟨.hbm, 113, rfl⟩
abbrev main_call4_v3 : Ref sig .tc := ⟨.hbm, 114, rfl⟩
abbrev main_call4_cst_0 : Ref sig .tc := ⟨.hbm, 115, rfl⟩
abbrev main_call4_v4 : Ref sig .tc := ⟨.hbm, 116, rfl⟩
abbrev main_call4_v5 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x1_S640000x128_S640000x385_d1 : Shape.Concatenates [S640000x128, S640000x128, S640000x1, S640000x128] S640000x385 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S640000x1_S640000x3_0_1 : S640000x1.BroadcastsInDim S640000x3 (![0, 1] : Fin 2 → Fin S640000x3.rank)
  bcast_S_S50000x3 : S_.BroadcastsInDim S50000x3 (![] : Fin 0 → Fin S50000x3.rank)
  bcast_S_S50000x128 : S_.BroadcastsInDim S50000x128 (![] : Fin 0 → Fin S50000x128.rank)
  concatenates_S50000x128_S50000x128_S50000x128_S50000x384_d1 : Shape.Concatenates [S50000x128, S50000x128, S50000x128] S50000x384 1
  bcast_S1x128_S50000x128_0_1 : S1x128.BroadcastsInDim S50000x128 (![0, 1] : Fin 2 → Fin S50000x128.rank)
  gather_S50000x128_S640000x1_S640000x128_1_0_n_n_0_1_1128_wf : GatherDims.WF S50000x128 S640000x1 S640000x128 [1] [0] [] [0] [] 1 ![1, 128]
  dot_S640000x385_S385x128_S640000x128_1_0_0_1_n_n_wf : DotDims.WF S640000x385 S385x128 S640000x128 [1] [0] [0] [1] [] []
  dot_S640000x128_S128x128_S640000x128_1_0_0_1_n_n_wf : DotDims.WF S640000x128 S128x128 S640000x128 [1] [0] [0] [1] [] []
  dot_S640000x128_S128x1_S640000x1_1_0_0_1_n_n_wf : DotDims.WF S640000x128 S128x1 S640000x1 [1] [0] [0] [1] [] []
  scatter_S50000x3_S640000x1_S640000x3_1_0_0_1_wf : ScatterDims.WF S50000x3 S640000x1 S640000x3 [1] [0] [0] 1
  scatter_S50000x128_S640000x1_S640000x128_1_0_0_1_wf : ScatterDims.WF S50000x128 S640000x1 S640000x128 [1] [0] [0] 1
  dot_S50000x384_S384x128_S50000x128_1_0_0_1_n_n_wf : DotDims.WF S50000x384 S384x128 S50000x128 [1] [0] [0] [1] [] []
  dot_S50000x128_S128x128_S50000x128_1_0_0_1_n_n_wf : DotDims.WF S50000x128 S128x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x385_S385x128_S640000x128_1_0_0_1_n_n : DotDims S640000x385 S385x128 S640000x128 where
  lhsContracting := [1]
  rhsContracting := [0]
  lhsNonContracting := [0]
  rhsNonContracting := [1]
  lhsBatch := []
  rhsBatch := []
  wf := dot_S640000x385_S385x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S640000x128_S128x1_S640000x1_1_0_0_1_n_n : DotDims S640000x128 S128x1 S640000x1 where
  lhsContracting := [1]
  rhsContracting := [0]
  lhsNonContracting := [0]
  rhsNonContracting := [1]
  lhsBatch := []
  rhsBatch := []
  wf := dot_S640000x128_S128x1_S640000x1_1_0_0_1_n_n_wf
def scatter_S50000x3_S640000x1_S640000x3_1_0_0_1 : ScatterDims S50000x3 S640000x1 S640000x3 where
  updateWindowDims := [1]
  insertedWindowDims := [0]
  scatterDimsToOperandDims := [0]
  indexVectorDim := 1
  wf := scatter_S50000x3_S640000x1_S640000x3_1_0_0_1_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.TakeDef.lean ====
/-
  The kernel's row gather, as one function of the feature table and the index vector.

  Indices below zero are first moved up by 50000; a row whose moved index lies in 0 … 49999 is the table's row
  at that index, and any other row is filled with a constant.
-/
import proofs.«423871_j23063974379744_1_alg».proof.Proof.Gen.KernelIdeal

noncomputable section

namespace Cert.KernelIdeal.Val

open Idealize.ShloMosaic Idealize.SL.Sem
open Cert.KernelIdeal Cert.KernelIdeal.Gen

variable {F : FTy → Type} [FloatOps F]

/-- The moved indices, as a [640000 × 1] column of start indices. -/
def takeStart (idx : IVec S640000 32) : IVec S640000x1 32 :=
  broadcastInDim S640000x1 ![0] bcast_S640000_S640000x1_0
    (select (cmpi .slt idx (broadcastInDim S640000 ![] bcast_S_S640000 (constantI S_ 32 0#32)))
      (addi idx (broadcastInDim S640000 ![] bcast_S_S640000 (constantI S_ 32 50000#32))) idx)

/-- Which rows' moved index lies in 0 … 49999. -/
def takeOk (idx : IVec S640000 32) : IVec S640000 1 :=
  Host.reduce IntOp.andi
    (andi (cmpi .sge (takeStart idx) (broadcastInDim S640000x1 ![] bcast_S_S640000x1 (constantI S_ 32 0#32)))
      (cmpi .sle (takeStart idx) (broadcastInDim S640000x1 ![0, 1] bcast_S1x1_S640000x1_0_1
        (broadcastInDim S1x1 ![1] bcast_S1_S1x1_1 (constantI S1 32 49999#32)))))
    (constantI S_ 1 1#1) reducesTo_S640000x1_S640000_d1 h_S_

/-- The gathered rows: the table's row where the moved index is in range, the fill elsewhere. -/
def takeK (h : FVec F S50000x128 .f32) (idx : IVec S640000 32) : FVec F S640000x128 .f32 :=
  select (broadcastInDim S640000x128 ![0] bcast_S640000_S640000x128_0 (takeOk idx))
    (Host.gather gather_S50000x128_S640000x1_S640000x128_1_0_n_n_0_1_1128 h (takeStart idx))
    (broadcastInDim S640000x128 ![] bcast_S_S640000x128 (constant S_ .f32 0x7FC00000#32))

end Cert.KernelIdeal.Val

end
-- ==== Proof.HostFold.lean ====
/-
  The buffer contents at each boundary of the kernel's @main, read at the buffers the value needs.

  Before the first region two host stretches gather the node features by the source and by the destination
  indices; nothing else is written before the region, so the region finds the gathered arrays and the
  arguments as launched. Between the regions one host stretch scatter-adds the weighted coordinate differences
  by the source indices and the messages by the destination indices, reading the first region's two result
  arrays; the second region finds those sums and the arguments as launched, and its result array is what its
  write-backs leave.
-/
import proofs.«423871_j23063974379744_1_alg».proof.Proof.Gen.KernelIdeal.Frame
import proofs.«423871_j23063974379744_1_alg».proof.Proof.TakeDef
import Idealize.ShloMosaic.Lib.StableHlo.Run

set_option maxRecDepth 16384

noncomputable section

namespace Cert.KernelIdeal.Val

open Idealize.ShloMosaic Idealize.ShloMosaic.TcCoe Idealize.ShloMosaic.StableHlo Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-! ## The arguments at the first region's entry -/

/-- Argument 0 is as launched when region 0 is entered. -/
theorem W2_arg0 (c : Dev nD) : W2 m ρ c (Proc.devRef .tc main_arg0) = m ((c : Thread nD τ).loc main_arg0) :=
  calc W2 m ρ c (Proc.devRef .tc main_arg0)
    _ = W1 m ρ c (Proc.devRef .tc main_arg0) := StableHlo.after_of_forall_not_mem (b := Proc.devRef .tc main_arg0) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg0) := StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg0) := rfl
/-- Argument 1 is as launched when region 0 is entered. -/
theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := StableHlo.after_of_forall_not_mem (b := Proc.devRef .tc main_arg1) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg1) := StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg1) := rfl
/-- Argument 2 is as launched when region 0 is entered. -/
theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := StableHlo.after_of_forall_not_mem (b := Proc.devRef .tc main_arg2) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg2) := StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := rfl
/-- Argument 3 is as launched when region 0 is entered. -/
theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := StableHlo.after_of_forall_not_mem (b := Proc.devRef .tc main_arg3) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg3) := StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl
/-- Argument 4 is as launched when region 0 is entered. -/
theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := StableHlo.after_of_forall_not_mem (b := Proc.devRef .tc main_arg4) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg4) := StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl
/-- Argument 5 is as launched when region 0 is entered. -/
theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := StableHlo.after_of_forall_not_mem (b := Proc.devRef .tc main_arg5) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg5) := StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := rfl
/-- Argument 6 is as launched when region 0 is entered. -/
theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := StableHlo.after_of_forall_not_mem (b := Proc.devRef .tc main_arg6) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg6) := StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg6) := rfl
/-- Argument 7 is as launched when region 0 is entered. -/
theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := StableHlo.after_of_forall_not_mem (b := Proc.devRef .tc main_arg7) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg7) := StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg7) := rfl
/-- Argument 8 is as launched when region 0 is entered. -/
theorem W2_arg8 (c : Dev nD) : W2 m ρ c (Proc.devRef .tc main_arg8) = m ((c : Thread nD τ).loc main_arg8) :=
  calc W2 m ρ c (Proc.devRef .tc main_arg8)
    _ = W1 m ρ c (Proc.devRef .tc main_arg8) := StableHlo.after_of_forall_not_mem (b := Proc.devRef .tc main_arg8) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg8) := StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg8) := rfl
/-- Argument 9 is as launched when region 0 is entered. -/
theorem W2_arg9 (c : Dev nD) : W2 m ρ c (Proc.devRef .tc main_arg9) = m ((c : Thread nD τ).loc main_arg9) :=
  calc W2 m ρ c (Proc.devRef .tc main_arg9)
    _ = W1 m ρ c (Proc.devRef .tc main_arg9) := StableHlo.after_of_forall_not_mem (b := Proc.devRef .tc main_arg9) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg9) := StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg9) := rfl
/-- Argument 10 is as launched when region 0 is entered. -/
theorem W2_arg10 (c : Dev nD) : W2 m ρ c (Proc.devRef .tc main_arg10) = m ((c : Thread nD τ).loc main_arg10) :=
  calc W2 m ρ c (Proc.devRef .tc main_arg10)
    _ = W1 m ρ c (Proc.devRef .tc main_arg10) := StableHlo.after_of_forall_not_mem (b := Proc.devRef .tc main_arg10) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg10) := StableHlo.after_of_forall_not_mem (b := Proc.devRef .tc main_arg10) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg10) := rfl
/-- Argument 11 is as launched when region 0 is entered. -/
theorem W2_arg11 (c : Dev nD) : W2 m ρ c (Proc.devRef .tc main_arg11) = m ((c : Thread nD τ).loc main_arg11) :=
  calc W2 m ρ c (Proc.devRef .tc main_arg11)
    _ = W1 m ρ c (Proc.devRef .tc main_arg11) := StableHlo.after_of_forall_not_mem (b := Proc.devRef .tc main_arg11) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg11) := StableHlo.after_of_forall_not_mem (b := Proc.devRef .tc main_arg11) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg11) := rfl
/-- Argument 12 is as launched when region 0 is entered. -/
theorem W2_arg12 (c : Dev nD) : W2 m ρ c (Proc.devRef .tc main_arg12) = m ((c : Thread nD τ).loc main_arg12) :=
  calc W2 m ρ c (Proc.devRef .tc main_arg12)
    _ = W1 m ρ c (Proc.devRef .tc main_arg12) := StableHlo.after_of_forall_not_mem (b := Proc.devRef .tc main_arg12) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg12) := StableHlo.after_of_forall_not_mem (b := Proc.devRef .tc main_arg12) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg12) := rfl
/-- Argument 13 is as launched when region 0 is entered. -/
theorem W2_arg13 (c : Dev nD) : W2 m ρ c (Proc.devRef .tc main_arg13) = m ((c : Thread nD τ).loc main_arg13) :=
  calc W2 m ρ c (Proc.devRef .tc main_arg13)
    _ = W1 m ρ c (Proc.devRef .tc main_arg13) := StableHlo.after_of_forall_not_mem (b := Proc.devRef .tc main_arg13) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg13) := StableHlo.after_of_forall_not_mem (b := Proc.devRef .tc main_arg13) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg13) := rfl
/-- Argument 14 is as launched when region 0 is entered. -/
theorem W2_arg14 (c : Dev nD) : W2 m ρ c (Proc.devRef .tc main_arg14) = m ((c : Thread nD τ).loc main_arg14) :=
  calc W2 m ρ c (Proc.devRef .tc main_arg14)
    _ = W1 m ρ c (Proc.devRef .tc main_arg14) := StableHlo.after_of_forall_not_mem (b := Proc.devRef .tc main_arg14) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg14) := StableHlo.after_of_forall_not_mem (b := Proc.devRef .tc main_arg14) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg14) := rfl
/-- Argument 15 is as launched when region 0 is entered. -/
theorem W2_arg15 (c : Dev nD) : W2 m ρ c (Proc.devRef .tc main_arg15) = m ((c : Thread nD τ).loc main_arg15) :=
  calc W2 m ρ c (Proc.devRef .tc main_arg15)
    _ = W1 m ρ c (Proc.devRef .tc main_arg15) := StableHlo.after_of_forall_not_mem (b := Proc.devRef .tc main_arg15) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg15) := StableHlo.after_of_forall_not_mem (b := Proc.devRef .tc main_arg15) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg15) := rfl
/-- Argument 16 is as launched when region 0 is entered. -/
theorem W2_arg16 (c : Dev nD) : W2 m ρ c (Proc.devRef .tc main_arg16) = m ((c : Thread nD τ).loc main_arg16) :=
  calc W2 m ρ c (Proc.devRef .tc main_arg16)
    _ = W1 m ρ c (Proc.devRef .tc main_arg16) := StableHlo.after_of_forall_not_mem (b := Proc.devRef .tc main_arg16) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg16) := StableHlo.after_of_forall_not_mem (b := Proc.devRef .tc main_arg16) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg16) := rfl
/-- Argument 17 is as launched when region 0 is entered. -/
theorem W2_arg17 (c : Dev nD) : W2 m ρ c (Proc.devRef .tc main_arg17) = m ((c : Thread nD τ).loc main_arg17) :=
  calc W2 m ρ c (Proc.devRef .tc main_arg17)
    _ = W1 m ρ c (Proc.devRef .tc main_arg17) := StableHlo.after_of_forall_not_mem (b := Proc.devRef .tc main_arg17) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg17) := StableHlo.after_of_forall_not_mem (b := Proc.devRef .tc main_arg17) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg17) := rfl

/-! ## The two gathered arrays at the first region's entry -/

set_option maxHeartbeats 4000000 in
/-- The rows gathered by the source indices. -/
theorem W2_v0 (c : Dev nD) : W2 m ρ c (Proc.devRef .tc main_v0) = takeK (m ((c : Thread nD τ).loc main_arg0)) (m ((c : Thread nD τ).loc main_arg3)) := by
  have e1 : W2 m ρ c (Proc.devRef .tc main_v0) = W1 m ρ c (Proc.devRef .tc main_v0) :=
    StableHlo.after_of_forall_not_mem (b := Proc.devRef .tc main_v0) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  rw [e1]
  show StableHlo.after hostOps0 (W0 m ρ c) (Proc.devRef .tc main_v0) = _
  after_results_simp
  simp only [TRef.toBuf, TRef.ofBuf, cast_eq]
  rfl

set_option maxHeartbeats 4000000 in
/-- The rows gathered by the destination indices. -/
theorem W2_v1 (c : Dev nD) : W2 m ρ c (Proc.devRef .tc main_v1) = takeK (m ((c : Thread nD τ).loc main_arg0)) (m ((c : Thread nD τ).loc main_arg4)) := by
  show StableHlo.after hostOps0_1 (W1 m ρ c) (Proc.devRef .tc main_v1) = _
  after_results_simp
  simp only [TRef.toBuf, TRef.ofBuf, cast_eq]
  rfl

/-! ## The first region's result arrays at its exit -/

theorem W3_msg (c : Dev nD) : W3 m ρ c (Proc.devRef .tc main_v2_0) = (dat0 (V2 m ρ) c).arrAt 11 cfg0.N := W3_arr m ρ c 11
theorem W3_cw (c : Dev nD) : W3 m ρ c (Proc.devRef .tc main_v2_1) = (dat0 (V2 m ρ) c).arrAt 12 cfg0.N := W3_arr m ρ c 12

/-- Argument 2, an input array of region 0, is as launched at its exit. -/
theorem W3_arg2 (c : Dev nD) : W3 m ρ c (Proc.devRef .tc main_arg2) = m ((c : Thread nD τ).loc main_arg2) :=
  ((W3_arr m ρ c 2).trans (((dat0 (V2 m ρ) c).arrAt_in 2 rfl _).trans (A_eq0 (V2 m ρ) c 2))).trans (W2_arg2 m ρ c)

/-! ## The arguments and the two scatter-added arrays at the second region's entry -/

/-- Argument 0 is as launched when region 1 is entered. -/
theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg0) := W3_of_ne m ρ c main_arg0 (by decide)
    _ = m ((c : Thread nD τ).loc main_arg0) := W2_arg0 m ρ c
/-- Argument 6 is as launched when region 1 is entered. -/
theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg6) := W3_of_ne m ρ c main_arg6 (by decide)
    _ = m ((c : Thread nD τ).loc main_arg6) := W2_arg6 m ρ c
/-- Argument 14 is as launched when region 1 is entered. -/
theorem W4_arg14 (c : Dev nD) : W4 m ρ c (Proc.devRef .tc main_arg14) = m ((c : Thread nD τ).loc main_arg14) :=
  calc W4 m ρ c (Proc.devRef .tc main_arg14)
    _ = W3 m ρ c (Proc.devRef .tc main_arg14) := StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg14) := W3_of_ne m ρ c main_arg14 (by decide)
    _ = m ((c : Thread nD τ).loc main_arg14) := W2_arg14 m ρ c
/-- Argument 15 is as launched when region 1 is entered. -/
theorem W4_arg15 (c : Dev nD) : W4 m ρ c (Proc.devRef .tc main_arg15) = m ((c : Thread nD τ).loc main_arg15) :=
  calc W4 m ρ c (Proc.devRef .tc main_arg15)
    _ = W3 m ρ c (Proc.devRef .tc main_arg15) := StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg15) := W3_of_ne m ρ c main_arg15 (by decide)
    _ = m ((c : Thread nD τ).loc main_arg15) := W2_arg15 m ρ c
/-- Argument 16 is as launched when region 1 is entered. -/
theorem W4_arg16 (c : Dev nD) : W4 m ρ c (Proc.devRef .tc main_arg16) = m ((c : Thread nD τ).loc main_arg16) :=
  calc W4 m ρ c (Proc.devRef .tc main_arg16)
    _ = W3 m ρ c (Proc.devRef .tc main_arg16) := StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg16) := W3_of_ne m ρ c main_arg16 (by decide)
    _ = m ((c : Thread nD τ).loc main_arg16) := W2_arg16 m ρ c
/-- Argument 17 is as launched when region 1 is entered. -/
theorem W4_arg17 (c : Dev nD) : W4 m ρ c (Proc.devRef .tc main_arg17) = m ((c : Thread nD τ).loc main_arg17) :=
  calc W4 m ρ c (Proc.devRef .tc main_arg17)
    _ = W3 m ρ c (Proc.devRef .tc main_arg17) := StableHlo.after_of_forall_not_mem (b := Proc.devRef .tc main_arg17) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg17) := W3_of_ne m ρ c main_arg17 (by decide)
    _ = m ((c : Thread nD τ).loc main_arg17) := W2_arg17 m ρ c

/-- Arguments 1, 3 and 4 at the first region's exit (none is an array of the region). -/
theorem W3_arg1 (c : Dev nD) : W3 m ρ c (Proc.devRef .tc main_arg1) = m ((c : Thread nD τ).loc main_arg1) :=
  (W3_of_ne m ρ c main_arg1 (by decide)).trans (W2_arg1 m ρ c)
theorem W3_arg3 (c : Dev nD) : W3 m ρ c (Proc.devRef .tc main_arg3) = m ((c : Thread nD τ).loc main_arg3) :=
  (W3_of_ne m ρ c main_arg3 (by decide)).trans (W2_arg3 m ρ c)
theorem W3_arg4 (c : Dev nD) : W3 m ρ c (Proc.devRef .tc main_arg4) = m ((c : Thread nD τ).loc main_arg4) :=
  (W3_of_ne m ρ c main_arg4 (by decide)).trans (W2_arg4 m ρ c)

/-- The messages summed by destination node. -/
theorem W4_v10 (c : Dev nD) : W4 m ρ c (Proc.devRef .tc main_v10)
    = Host.scatterAdd scatter_S50000x128_S640000x1_S640000x128_1_0_0_1
        (broadcastInDim S50000x128 ![] bcast_S_S50000x128 (constant S_ .f32 0x00000000#32))
        (broadcastInDim S640000x1 ![0] bcast_S640000_S640000x1_0 (m ((c : Thread nD τ).loc main_arg4)))
        (W3 m ρ c (Proc.devRef .tc main_v2_0)) := by
  show StableHlo.after hostOps1 (W3 m ρ c) (Proc.devRef .tc main_v10) = _
  after_results
  rw [W3_arg4 m ρ c]

/-- The weighted coordinate differences summed by source node. -/
theorem W4_v7 (c : Dev nD) : W4 m ρ c (Proc.devRef .tc main_v7)
    = Host.scatterAdd scatter_S50000x3_S640000x1_S640000x3_1_0_0_1
        (broadcastInDim S50000x3 ![] bcast_S_S50000x3 (constant S_ .f32 0x00000000#32))
        (broadcastInDim S640000x1 ![0] bcast_S640000_S640000x1_0 (m ((c : Thread nD τ).loc main_arg3)))
        (mulf (m ((c : Thread nD τ).loc main_arg1)) (broadcastInDim S640000x3 ![0, 1] bcast_S640000x1_S640000x3_0_1 (W3 m ρ c (Proc.devRef .tc main_v2_1)))) := by
  show StableHlo.after hostOps1 (W3 m ρ c) (Proc.devRef .tc main_v7) = _
  after_results
  rw [W3_arg3 m ρ c, W3_arg1 m ρ c]

/-! ## The results at the end -/

theorem W5_v11 (c : Dev nD) : W5 m ρ c (Proc.devRef .tc main_v11) = (dat1 (V4 m ρ) c).arrAt 7 cfg1.N := W5_arr m ρ c 7
theorem W5_v7 (c : Dev nD) : W5 m ρ c (Proc.devRef .tc main_v7) = W4 m ρ c (Proc.devRef .tc main_v7) :=
  W5_of_ne m ρ c main_v7 (by decide)

end Cert.KernelIdeal.Val

end
-- ==== Proof.Spec.lean ====
/-
  The layer, one row at a time, over the extended reals.

  An edge's message is two affine layers with the activation x ↦ x · σ(x) after each, applied to the row
  [h_src | h_dst | d | t] of length 385; its coordinate weight is a third activated affine layer followed by a
  product with a column; a node's update adds to its own row h the image of [h | m | t] (length 384) under one
  activated affine layer and one affine layer. Every function here reads ONE row of its row-indexed operands, so
  it does not matter whether the rows are those of a tile or of the whole array: `Gmsg`, `Gcw` and `Gnode`
  are stated for any number of rows `R`.
-/
import Idealize.ShloMosaic.PureOps.Ideal
import Idealize.ShloMosaic.Lib.ValueIdx

noncomputable section

namespace Cert.Spec

open Idealize.ShloMosaic Idealize.ShloMosaic.ValueIdx

/-- The activation x · σ(x), σ the logistic function. -/
def silu (x : EReal) : EReal := x * Ideal.logistic x

/-- One output coordinate of an affine layer: ∑ₖ aₖ · W[k, j] + b[j]. -/
def lin {K N : Nat} (a : Fin K → EReal) (W : FVec Ideal (⟨2, ![K, N]⟩ : Shape) .f32)
    (b : FVec Ideal (⟨1, ![N]⟩ : Shape) .f32) (j : Fin N) : EReal :=
  (∑ k : Fin K, a k * W (ix2 k j)) + b (ix1 j)

/-- Row `r` of a matrix. -/
def row {R C : Nat} (X : FVec Ideal (⟨2, ![R, C]⟩ : Shape) .f32) (r : Fin R) : Fin C → EReal := fun q => X (ix2 r q)

/-- [a | b | d | t]: 128 + 128 + 1 + 128 entries. -/
def cat4 (a b : Fin 128 → EReal) (d : EReal) (t : Fin 128 → EReal) (k : Fin 385) : EReal :=
  if h : k.val < 128 then a ⟨k.val, h⟩
  else if h2 : k.val < 256 then b ⟨k.val - 128, by omega⟩
  else if h3 : k.val < 257 then d
  else t ⟨k.val - 257, by omega⟩

/-- [a | b | t]: 128 + 128 + 128 entries. -/
def cat3 (a b t : Fin 128 → EReal) (k : Fin 384) : EReal :=
  if h : k.val < 128 then a ⟨k.val, h⟩
  else if h2 : k.val < 256 then b ⟨k.val - 128, by omega⟩
  else t ⟨k.val - 256, by omega⟩

/-- An edge's message from its four row pieces. -/
def edgeMsg (hs hd : Fin 128 → EReal) (d : EReal) (te : Fin 128 → EReal)
    (We1 : FVec Ideal (⟨2, ![385, 128]⟩ : Shape) .f32) (be1 : FVec Ideal (⟨1, ![128]⟩ : Shape) .f32)
    (We2 : FVec Ideal (⟨2, ![128, 128]⟩ : Shape) .f32) (be2 : FVec Ideal (⟨1, ![128]⟩ : Shape) .f32) (j : Fin 128) : EReal :=
  silu (lin (fun k => silu (lin (cat4 hs hd d te) We1 be1 k)) We2 be2 j)

/-- An edge's coordinate weight from its message. -/
def edgeWeight (msg : Fin 128 → EReal)
    (Wc1 : FVec Ideal (⟨2, ![128, 128]⟩ : Shape) .f32) (bc1 : FVec Ideal (⟨1, ![128]⟩ : Shape) .f32)
    (Wc2 : FVec Ideal (⟨2, ![128, 1]⟩ : Shape) .f32) : EReal :=
  ∑ k : Fin 128, silu (lin msg Wc1 bc1 k) * Wc2 (ix2 k 0)

/-- A node's updated row from its own row, its summed messages and its time embedding. -/
def nodeUpd (h mi tn : Fin 128 → EReal)
    (Wn1 : FVec Ideal (⟨2, ![384, 128]⟩ : Shape) .f32) (bn1 : FVec Ideal (⟨1, ![128]⟩ : Shape) .f32)
    (Wn2 : FVec Ideal (⟨2, ![128, 128]⟩ : Shape) .f32) (bn2 : FVec Ideal (⟨1, ![128]⟩ : Shape) .f32) (j : Fin 128) : EReal :=
  h j + lin (fun k => silu (lin (cat3 h mi tn) Wn1 bn1 k)) Wn2 bn2 j

/-- The messages of `R` edges, row by row. -/
def Gmsg (R : Nat) (Hs Hd : FVec Ideal (⟨2, ![R, 128]⟩ : Shape) .f32) (D : FVec Ideal (⟨2, ![R, 1]⟩ : Shape) .f32)
    (Te : FVec Ideal (⟨2, ![R, 128]⟩ : Shape) .f32)
    (We1 : FVec Ideal (⟨2, ![385, 128]⟩ : Shape) .f32) (be1 : FVec Ideal (⟨1, ![128]⟩ : Shape) .f32)
    (We2 : FVec Ideal (⟨2, ![128, 128]⟩ : Shape) .f32) (be2 : FVec Ideal (⟨1, ![128]⟩ : Shape) .f32) :
    FVec Ideal (⟨2, ![R, 128]⟩ : Shape) .f32 :=
  fun i => edgeMsg (row Hs (i 0)) (row Hd (i 0)) (D (ix2 (i 0) 0)) (row Te (i 0)) We1 be1 We2 be2 (i 1)

/-- The coordinate weights of `R` edges, row by row. -/
def Gcw (R : Nat) (Hs Hd : FVec Ideal (⟨2, ![R, 128]⟩ : Shape) .f32) (D : FVec Ideal (⟨2, ![R, 1]⟩ : Shape) .f32)
    (Te : FVec Ideal (⟨2, ![R, 128]⟩ : Shape) .f32)
    (We1 : FVec Ideal (⟨2, ![385, 128]⟩ : Shape) .f32) (be1 : FVec Ideal (⟨1, ![128]⟩ : Shape) .f32)
    (We2 : FVec Ideal (⟨2, ![128, 128]⟩ : Shape) .f32) (be2 : FVec Ideal (⟨1, ![128]⟩ : Shape) .f32)
    (Wc1 : FVec Ideal (⟨2, ![128, 128]⟩ : Shape) .f32) (bc1 : FVec Ideal (⟨1, ![128]⟩ : Shape) .f32)
    (Wc2 : FVec Ideal (⟨2, ![128, 1]⟩ : Shape) .f32) :
    FVec Ideal (⟨2, ![R, 1]⟩ : Shape) .f32 :=
  fun i => edgeWeight (edgeMsg (row Hs (i 0)) (row Hd (i 0)) (D (ix2 (i 0) 0)) (row Te (i 0)) We1 be1 We2 be2) Wc1 bc1 Wc2

/-- The updated rows of `R` nodes, row by row. -/
def Gnode (R : Nat) (H Mi Tn : FVec Ideal (⟨2, ![R, 128]⟩ : Shape) .f32)
    (Wn1 : FVec Ideal (⟨2, ![384, 128]⟩ : Shape) .f32) (bn1 : FVec Ideal (⟨1, ![128]⟩ : Shape) .f32)
    (Wn2 : FVec Ideal (⟨2, ![128, 128]⟩ : Shape) .f32) (bn2 : FVec Ideal (⟨1, ![128]⟩ : Shape) .f32) :
    FVec Ideal (⟨2, ![R, 128]⟩ : Shape) .f32 :=
  fun i => nodeUpd (row H (i 0)) (row Mi (i 0)) (row Tn (i 0)) Wn1 bn1 Wn2 bn2 (i 1)

end Cert.Spec

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.RowOps.lean ====
/-
  One row of a joined matrix, a bias laid over rows, and the activation, each read at an entry.

  A matrix made by laying [R × 128], [R × 128], [R × 1], [R × 128] side by side has, in row r, the four
  pieces' rows r one after the other; a bias vector first made a [1 × N] row and then repeated over R rows has
  entry k of the vector in every row; and 1 / (1 + e^(−x)) spelt with the host's operations is the logistic
  function. All of it for any number of rows R.
-/
import proofs.«423871_j23063974379744_1_alg».proof.Proof.Spec
import proofs.«423871_j23063974379744_1_alg».proof.Proof.LibMatmulAt
import Idealize.ShloMosaic.Lib.Pipeline.Value
import Idealize.ShloMosaic.Lib.ValueLayout
import Idealize.ShloMosaic.PureOps.Ideal.Laws

noncomputable section

namespace Cert.Spec

open Idealize.ShloMosaic Idealize.ShloMosaic.ValueIdx

/-- Row r of [x1 | x2 | x3 | x4] joined along the columns is `cat4` of the four rows r. -/
theorem cat4_apply {R : Nat} (x1 x2 : (⟨2, ![R, 128]⟩ : Shape).Idx → EReal) (x3 : (⟨2, ![R, 1]⟩ : Shape).Idx → EReal)
    (x4 : (⟨2, ![R, 128]⟩ : Shape).Idx → EReal)
    (h : Shape.Concatenates [(⟨2, ![R, 128]⟩ : Shape), ⟨2, ![R, 128]⟩, ⟨2, ![R, 1]⟩, ⟨2, ![R, 128]⟩] ⟨2, ![R, 385]⟩ 1)
    (r : Fin R) (k : Fin 385) :
    concatenate (⟨2, ![R, 385]⟩ : Shape) 1
        [⟨(⟨2, ![R, 128]⟩ : Shape), x1⟩, ⟨(⟨2, ![R, 128]⟩ : Shape), x2⟩, ⟨(⟨2, ![R, 1]⟩ : Shape), x3⟩, ⟨(⟨2, ![R, 128]⟩ : Shape), x4⟩] h (ix2 r k)
      = cat4 (fun q => x1 (ix2 r q)) (fun q => x2 (ix2 r q)) (x3 (ix2 r 0)) (fun q => x4 (ix2 r q)) k := by
  -- the column k lies in exactly one of the four spans [0,128), [128,256), [256,257), [257,385)
  unfold cat4
  split
  · next hk =>
    refine concatenate_apply_piece (t := ⟨2, ![R, 385]⟩) (1 : Fin 2)
      [⟨(⟨2, ![R, 128]⟩ : Shape), x1⟩, ⟨(⟨2, ![R, 128]⟩ : Shape), x2⟩, ⟨(⟨2, ![R, 1]⟩ : Shape), x3⟩, ⟨(⟨2, ![R, 128]⟩ : Shape), x4⟩]
      h (ix2 r k) 0 (by show 0 < 4; omega) ⟨2, ![R, 128]⟩ x1 rfl rfl 0 rfl
      (ix2 r ⟨k.val, hk⟩) ?_ ?_
    · intro b hb
      match b with
      | ⟨0, _⟩ => rfl
      | ⟨1, _⟩ => exact absurd rfl hb
    · show 0 + k.val = k.val
      omega
  split
  · next hk1 hk =>
    refine concatenate_apply_piece (t := ⟨2, ![R, 385]⟩) (1 : Fin 2)
      [⟨(⟨2, ![R, 128]⟩ : Shape), x1⟩, ⟨(⟨2, ![R, 128]⟩ : Shape), x2⟩, ⟨(⟨2, ![R, 1]⟩ : Shape), x3⟩, ⟨(⟨2, ![R, 128]⟩ : Shape), x4⟩]
      h (ix2 r k) 1 (by show 1 < 4; omega) ⟨2, ![R, 128]⟩ x2 rfl rfl 128 rfl
      (ix2 r ⟨k.val - 128, by omega⟩) ?_ ?_
    · intro b hb
      match b with
      | ⟨0, _⟩ => rfl
      | ⟨1, _⟩ => exact absurd rfl hb
    · show 128 + (k.val - 128) = k.val
      omega
  split
  · next hk1 hk2 hk =>
    refine concatenate_apply_piece (t := ⟨2, ![R, 385]⟩) (1 : Fin 2)
      [⟨(⟨2, ![R, 128]⟩ : Shape), x1⟩, ⟨(⟨2, ![R, 128]⟩ : Shape), x2⟩, ⟨(⟨2, ![R, 1]⟩ : Shape), x3⟩, ⟨(⟨2, ![R, 128]⟩ : Shape), x4⟩]
      h (ix2 r k) 2 (by show 2 < 4; omega) ⟨2, ![R, 1]⟩ x3 rfl rfl 256 rfl
      (ix2 r 0) ?_ ?_
    · intro b hb
      match b with
      | ⟨0, _⟩ => rfl
      | ⟨1, _⟩ => exact absurd rfl hb
    · show 256 + 0 = k.val
      omega
  · next hk1 hk2 hk3 =>
    refine concatenate_apply_piece (t := ⟨2, ![R, 385]⟩) (1 : Fin 2)
      [⟨(⟨2, ![R, 128]⟩ : Shape), x1⟩, ⟨(⟨2, ![R, 128]⟩ : Shape), x2⟩, ⟨(⟨2, ![R, 1]⟩ : Shape), x3⟩, ⟨(⟨2, ![R, 128]⟩ : Shape), x4⟩]
      h (ix2 r k) 3 (by show 3 < 4; omega) ⟨2, ![R, 128]⟩ x4 rfl rfl 257 rfl
      (ix2 r ⟨k.val - 257, by omega⟩) ?_ ?_
    · intro b hb
      match b with
      | ⟨0, _⟩ => rfl
      | ⟨1, _⟩ => exact absurd rfl hb
    · show 257 + (k.val - 257) = k.val
      omega

/-- Row r of [x1 | x2 | x3] joined along the columns is `cat3` of the three rows r. -/
theorem cat3_apply {R : Nat} (x1 x2 x3 : (⟨2, ![R, 128]⟩ : Shape).Idx → EReal)
    (h : Shape.Concatenates [(⟨2, ![R, 128]⟩ : Shape), ⟨2, ![R, 128]⟩, ⟨2, ![R, 128]⟩] ⟨2, ![R, 384]⟩ 1)
    (r : Fin R) (k : Fin 384) :
    concatenate (⟨2, ![R, 384]⟩ : Shape) 1
        [⟨(⟨2, ![R, 128]⟩ : Shape), x1⟩, ⟨(⟨2, ![R, 128]⟩ : Shape), x2⟩, ⟨(⟨2, ![R, 128]⟩ : Shape), x3⟩] h (ix2 r k)
      = cat3 (fun q => x1 (ix2 r q)) (fun q => x2 (ix2 r q)) (fun q => x3 (ix2 r q)) k := by
  -- the column k lies in exactly one of the three spans [0,128), [128,256), [256,384)
  unfold cat3
  split
  · next hk =>
    refine concatenate_apply_piece (t := ⟨2, ![R, 384]⟩) (1 : Fin 2)
      [⟨(⟨2, ![R, 128]⟩ : Shape), x1⟩, ⟨(⟨2, ![R, 128]⟩ : Shape), x2⟩, ⟨(⟨2, ![R, 128]⟩ : Shape), x3⟩]
      h (ix2 r k) 0 (by show 0 < 3; omega) ⟨2, ![R, 128]⟩ x1 rfl rfl 0 rfl
      (ix2 r ⟨k.val, hk⟩) ?_ ?_
    · intro b hb
      match b with
      | ⟨0, _⟩ => rfl
      | ⟨1, _⟩ => exact absurd rfl hb
    · show 0 + k.val = k.val
      omega
  split
  · next hk1 hk =>
    refine concatenate_apply_piece (t := ⟨2, ![R, 384]⟩) (1 : Fin 2)
      [⟨(⟨2, ![R, 128]⟩ : Shape), x1⟩, ⟨(⟨2, ![R, 128]⟩ : Shape), x2⟩, ⟨(⟨2, ![R, 128]⟩ : Shape), x3⟩]
      h (ix2 r k) 1 (by show 1 < 3; omega) ⟨2, ![R, 128]⟩ x2 rfl rfl 128 rfl
      (ix2 r ⟨k.val - 128, by omega⟩) ?_ ?_
    · intro b hb
      match b with
      | ⟨0, _⟩ => rfl
      | ⟨1, _⟩ => exact absurd rfl hb
    · show 128 + (k.val - 128) = k.val
      omega
  · next hk1 hk2 =>
    refine concatenate_apply_piece (t := ⟨2, ![R, 384]⟩) (1 : Fin 2)
      [⟨(⟨2, ![R, 128]⟩ : Shape), x1⟩, ⟨(⟨2, ![R, 128]⟩ : Shape), x2⟩, ⟨(⟨2, ![R, 128]⟩ : Shape), x3⟩]
      h (ix2 r k) 2 (by show 2 < 3; omega) ⟨2, ![R, 128]⟩ x3 rfl rfl 256 rfl
      (ix2 r ⟨k.val - 256, by omega⟩) ?_ ?_
    · intro b hb
      match b with
      | ⟨0, _⟩ => rfl
      | ⟨1, _⟩ => exact absurd rfl hb
    · show 256 + (k.val - 256) = k.val
      omega

/-- A vector cast to a [1 × N] row and broadcast over R rows reads, at (p, k), the vector at k. -/
theorem bias_apply {R N : Nat} (v : (⟨1, ![N]⟩ : Shape).Idx → EReal)
    (h1 : (⟨1, ![N]⟩ : Shape).ShapeCasts ⟨2, ![1, N]⟩) (h2 : (⟨2, ![1, N]⟩ : Shape).Broadcasts ⟨2, ![R, N]⟩)
    (p : Fin R) (k : Fin N) :
    broadcastTo (⟨2, ![R, N]⟩ : Shape) (shapeCast (⟨2, ![1, N]⟩ : Shape) v h1) h2 (ix2 p k) = v (ix1 k) := by
  -- the broadcast reads row 0 of the [1 × N] row (and column 0 = k when N = 1); the cast row at (0, k) is the vector at k
  refine (broadcastTo_apply (s := ⟨2, ![1, N]⟩) (t := ⟨2, ![R, N]⟩) _ h2 (ix2 p k) (ix2 (0 : Fin 1) k) ?_).trans ?_
  · intro a
    match a with
    | ⟨0, _⟩ => exact (if_pos rfl).symm
    | ⟨1, _⟩ =>
      show k.val = if N = 1 then 0 else k.val
      split
      · next hN => have := k.isLt; omega
      · rfl
  · refine (shapeCast_addUnit_apply ![N] v h1 (ix2 (0 : Fin 1) k)).trans ?_
    congr 1
    funext a
    match a with
    | ⟨0, _⟩ => rfl

/-- The host's spelling of the same: broadcast in dimensions [1], then [0, 1]. -/
theorem bias_host_apply {R N : Nat} (v : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![R, N]⟩ ![0, 1])
    (p : Fin R) (k : Fin N) :
    broadcastInDim (⟨2, ![R, N]⟩ : Shape) ![0, 1] h2 (broadcastInDim (⟨2, ![1, N]⟩ : Shape) ![1] h1 v) (ix2 p k) = v (ix1 k) := by
  -- the outer broadcast reads row 0 of the [1 × N] row; the inner one reads the vector at the column
  refine (broadcastInDim_apply (s := ⟨2, ![1, N]⟩) (t := ⟨2, ![R, N]⟩) ![0, 1] h2 _ (ix2 p k) (ix2 (0 : Fin 1) k) ?_).trans ?_
  · intro a
    match a with
    | ⟨0, _⟩ => exact (if_pos rfl).symm
    | ⟨1, _⟩ =>
      show k.val = if N = 1 then 0 else k.val
      split
      · next hN => have := k.isLt; omega
      · rfl
  · refine broadcastInDim_apply (s := ⟨1, ![N]⟩) (t := ⟨2, ![1, N]⟩) ![1] h1 v (ix2 (0 : Fin 1) k) (ix1 k) ?_
    intro a
    match a with
    | ⟨0, _⟩ =>
      show k.val = if N = 1 then 0 else k.val
      split
      · next hN => have := k.isLt; omega
      · rfl

/-- The word 0x3F800000 is the number one. -/
theorem one_f32 : Ideal.ofBits .f32 0x3F800000#32 = 1 := by
  simp [Ideal.ofBits, Ideal.ieee, -EReal.coe_mul]; norm_num

/-- x · (1 / (1 + e^(−x))) in the host's operations is the activation. -/
theorem silu_host (x : Ideal .f32) :
    FloatOps.mulf x (FloatOps.hostDivf (FloatOps.ofBits .f32 0x3F800000#32)
      (FloatOps.addf (FloatOps.ofBits .f32 0x3F800000#32) (FloatOps.hostUnary .exp (FloatOps.hostNegf x)))) = silu x := by
  -- the word is the number one, and 1 / (1 + e^(−x)) is the logistic function by definition
  have e : (FloatOps.ofBits .f32 0x3F800000#32 : Ideal .f32) = (1 : EReal) := one_f32
  rw [e]
  rfl

/-- x · logistic x in the kernel's operations is the activation. -/
theorem silu_kernel (x : Ideal .f32) : FloatOps.mulf x (FloatOps.logistic x) = silu x := rfl

end Cert.Spec

end
-- ==== Proof.Blocks.lean ====
/-
  What one grid point of each kernel computes, as the row functions of the layer.

  The edge kernel's body, on a tile of 3200 edges, joins the four row pieces, applies two activated affine layers
  (each a matrix product into a zero accumulator plus a bias row), stores the message tile, and applies a third
  activated affine layer and a product with a [128 × 1] column for the weight tile; the node kernel's body, on a
  tile of 2000 nodes, joins three row pieces, applies one activated affine layer and one affine layer and adds
  the node's own row. Changes of float format are the identity over the extended reals, and a product into a
  zero accumulator at (p, q) is ∑ₖ l[p, k] · r[k, q]; so each stored tile is `Gmsg`, `Gcw`, `Gnode` of the
  loaded tiles, at 3200 resp. 2000 rows.
-/
import proofs.«423871_j23063974379744_1_alg».proof.Proof.Gen.KernelIdeal.Skeleton
import proofs.«423871_j23063974379744_1_alg».proof.Proof.RowOps

noncomputable section

namespace Cert.KernelIdeal.Val

open Idealize.ShloMosaic Idealize.ShloMosaic.ValueIdx Idealize.SL.Sem
open Cert.KernelIdeal Cert.KernelIdeal.Gen

/-! ## Where the five printed products read their operands

Each record contracts the left operand's second axis with the right operand's first and has no batch axis: the
left operand is read at (row, k), the right at (k, column). -/

private theorem dA_l0 (i : S3200x128.Idx) (q : dot_S3200x385_S385x128_S3200x128_1_0_0_1_n_n.contr.Idx) :
    (dot_S3200x385_S385x128_S3200x128_1_0_0_1_n_n.lhsIdx i q 0).val = (i 0).val := by
  unfold DotDims.lhsIdx
  rw [dif_neg (show ¬(0 : Fin S3200x385.rank) ∈ dot_S3200x385_S385x128_S3200x128_1_0_0_1_n_n.lhsBatch by decide),
    dif_pos (show (0 : Fin S3200x385.rank) ∈ dot_S3200x385_S385x128_S3200x128_1_0_0_1_n_n.lhsNonContracting by decide)]
  rfl
private theorem dA_l1 (i : S3200x128.Idx) (q : dot_S3200x385_S385x128_S3200x128_1_0_0_1_n_n.contr.Idx) :
    (dot_S3200x385_S385x128_S3200x128_1_0_0_1_n_n.lhsIdx i q 1).val = (q ⟨0, by decide⟩).val :=
  dot_S3200x385_S385x128_S3200x128_1_0_0_1_n_n.lhsIdx_val_of_single rfl i q
private theorem dA_r0 (i : S3200x128.Idx) (q : dot_S3200x385_S385x128_S3200x128_1_0_0_1_n_n.contr.Idx) :
    (dot_S3200x385_S385x128_S3200x128_1_0_0_1_n_n.rhsIdx i q 0).val = (q ⟨0, by decide⟩).val :=
  dot_S3200x385_S385x128_S3200x128_1_0_0_1_n_n.rhsIdx_val_of_single rfl i q
private theorem dA_r1 (i : S3200x128.Idx) (q : dot_S3200x385_S385x128_S3200x128_1_0_0_1_n_n.contr.Idx) :
    (dot_S3200x385_S385x128_S3200x128_1_0_0_1_n_n.rhsIdx i q 1).val = (i 1).val := by
  unfold DotDims.rhsIdx
  rw [dif_neg (show ¬(1 : Fin S385x128.rank) ∈ dot_S3200x385_S385x128_S3200x128_1_0_0_1_n_n.rhsBatch by decide),
    dif_pos (show (1 : Fin S385x128.rank) ∈ dot_S3200x385_S385x128_S3200x128_1_0_0_1_n_n.rhsNonContracting by decide)]
  rfl
/-- The product of a [3200 × 385] and a [385 × 128] matrix into a zero accumulator, at (p, q). -/
private theorem dA_at {φ₁ φ₂ : FTy} (l : FVec Ideal S3200x385 φ₁) (r : FVec Ideal S385x128 φ₂) (p : Fin 3200) (q : Fin 128) :
    matmul dot_S3200x385_S385x128_S3200x128_1_0_0_1_n_n none l r (constant (F := Ideal) S3200x128 .f32 0x00000000#32) (ix2 p q)
      = ∑ k : Fin 385, l (ix2 p k) * r (ix2 k q) :=
  Idealize.ShloMosaic.MatmulAt.matmul_zero_at dot_S3200x385_S385x128_S3200x128_1_0_0_1_n_n rfl rfl dA_l0 dA_l1 dA_r0 dA_r1 none l r p q

private theorem dB_l0 (i : S3200x128.Idx) (q : dot_S3200x128_S128x128_S3200x128_1_0_0_1_n_n.contr.Idx) :
    (dot_S3200x128_S128x128_S3200x128_1_0_0_1_n_n.lhsIdx i q 0).val = (i 0).val := by
  unfold DotDims.lhsIdx
  rw [dif_neg (show ¬(0 : Fin S3200x128.rank) ∈ dot_S3200x128_S128x128_S3200x128_1_0_0_1_n_n.lhsBatch by decide),
    dif_pos (show (0 : Fin S3200x128.rank) ∈ dot_S3200x128_S128x128_S3200x128_1_0_0_1_n_n.lhsNonContracting by decide)]
  rfl
private theorem dB_l1 (i : S3200x128.Idx) (q : dot_S3200x128_S128x128_S3200x128_1_0_0_1_n_n.contr.Idx) :
    (dot_S3200x128_S128x128_S3200x128_1_0_0_1_n_n.lhsIdx i q 1).val = (q ⟨0, by decide⟩).val :=
  dot_S3200x128_S128x128_S3200x128_1_0_0_1_n_n.lhsIdx_val_of_single rfl i q
private theorem dB_r0 (i : S3200x128.Idx) (q : dot_S3200x128_S128x128_S3200x128_1_0_0_1_n_n.contr.Idx) :
    (dot_S3200x128_S128x128_S3200x128_1_0_0_1_n_n.rhsIdx i q 0).val = (q ⟨0, by decide⟩).val :=
  dot_S3200x128_S128x128_S3200x128_1_0_0_1_n_n.rhsIdx_val_of_single rfl i q
private theorem dB_r1 (i : S3200x128.Idx) (q : dot_S3200x128_S128x128_S3200x128_1_0_0_1_n_n.contr.Idx) :
    (dot_S3200x128_S128x128_S3200x128_1_0_0_1_n_n.rhsIdx i q 1).val = (i 1).val := by
  unfold DotDims.rhsIdx
  rw [dif_neg (show ¬(1 : Fin S128x128.rank) ∈ dot_S3200x128_S128x128_S3200x128_1_0_0_1_n_n.rhsBatch by decide),
    dif_pos (show (1 : Fin S128x128.rank) ∈ dot_S3200x128_S128x128_S3200x128_1_0_0_1_n_n.rhsNonContracting by decide)]
  rfl
/-- The product of a [3200 × 128] and a [128 × 128] matrix into a zero accumulator, at (p, q). -/
private theorem dB_at {φ₁ φ₂ : FTy} (l : FVec Ideal S3200x128 φ₁) (r : FVec Ideal S128x128 φ₂) (p : Fin 3200) (q : Fin 128) :
    matmul dot_S3200x128_S128x128_S3200x128_1_0_0_1_n_n none l r (constant (F := Ideal) S3200x128 .f32 0x00000000#32) (ix2 p q)
      = ∑ k : Fin 128, l (ix2 p k) * r (ix2 k q) :=
  Idealize.ShloMosaic.MatmulAt.matmul_zero_at dot_S3200x128_S128x128_S3200x128_1_0_0_1_n_n rfl rfl dB_l0 dB_l1 dB_r0 dB_r1 none l r p q

private theorem dC_l0 (i : S3200x1.Idx) (q : dot_S3200x128_S128x1_S3200x1_1_0_0_1_n_n.contr.Idx) :
    (dot_S3200x128_S128x1_S3200x1_1_0_0_1_n_n.lhsIdx i q 0).val = (i 0).val := by
  unfold DotDims.lhsIdx
  rw [dif_neg (show ¬(0 : Fin S3200x128.rank) ∈ dot_S3200x128_S128x1_S3200x1_1_0_0_1_n_n.lhsBatch by decide),
    dif_pos (show (0 : Fin S3200x128.rank) ∈ dot_S3200x128_S128x1_S3200x1_1_0_0_1_n_n.lhsNonContracting by decide)]
  rfl
private theorem dC_l1 (i : S3200x1.Idx) (q : dot_S3200x128_S128x1_S3200x1_1_0_0_1_n_n.contr.Idx) :
    (dot_S3200x128_S128x1_S3200x1_1_0_0_1_n_n.lhsIdx i q 1).val = (q ⟨0, by decide⟩).val :=
  dot_S3200x128_S128x1_S3200x1_1_0_0_1_n_n.lhsIdx_val_of_single rfl i q
private theorem dC_r0 (i : S3200x1.Idx) (q : dot_S3200x128_S128x1_S3200x1_1_0_0_1_n_n.contr.Idx) :
    (dot_S3200x128_S128x1_S3200x1_1_0_0_1_n_n.rhsIdx i q 0).val = (q ⟨0, by decide⟩).val :=
  dot_S3200x128_S128x1_S3200x1_1_0_0_1_n_n.rhsIdx_val_of_single rfl i q
private theorem dC_r1 (i : S3200x1.Idx) (q : dot_S3200x128_S128x1_S3200x1_1_0_0_1_n_n.contr.Idx) :
    (dot_S3200x128_S128x1_S3200x1_1_0_0_1_n_n.rhsIdx i q 1).val = (i 1).val := by
  unfold DotDims.rhsIdx
  rw [dif_neg (show ¬(1 : Fin S128x1.rank) ∈ dot_S3200x128_S128x1_S3200x1_1_0_0_1_n_n.rhsBatch by decide),
    dif_pos (show (1 : Fin S128x1.rank) ∈ dot_S3200x128_S128x1_S3200x1_1_0_0_1_n_n.rhsNonContracting by decide)]
  rfl
/-- The product of a [3200 × 128] and a [128 × 1] matrix into a zero accumulator, at (p, q). -/
private theorem dC_at {φ₁ φ₂ : FTy} (l : FVec Ideal S3200x128 φ₁) (r : FVec Ideal S128x1 φ₂) (p : Fin 3200) (q : Fin 1) :
    matmul dot_S3200x128_S128x1_S3200x1_1_0_0_1_n_n none l r (constant (F := Ideal) S3200x1 .f32 0x00000000#32) (ix2 p q)
      = ∑ k : Fin 128, l (ix2 p k) * r (ix2 k q) :=
  Idealize.ShloMosaic.MatmulAt.matmul_zero_at dot_S3200x128_S128x1_S3200x1_1_0_0_1_n_n rfl rfl dC_l0 dC_l1 dC_r0 dC_r1 none l r p q

private theorem dD_l0 (i : S2000x128.Idx) (q : dot_S2000x384_S384x128_S2000x128_1_0_0_1_n_n.contr.Idx) :
    (dot_S2000x384_S384x128_S2000x128_1_0_0_1_n_n.lhsIdx i q 0).val = (i 0).val := by
  unfold DotDims.lhsIdx
  rw [dif_neg (show ¬(0 : Fin S2000x384.rank) ∈ dot_S2000x384_S384x128_S2000x128_1_0_0_1_n_n.lhsBatch by decide),
    dif_pos (show (0 : Fin S2000x384.rank) ∈ dot_S2000x384_S384x128_S2000x128_1_0_0_1_n_n.lhsNonContracting by decide)]
  rfl
private theorem dD_l1 (i : S2000x128.Idx) (q : dot_S2000x384_S384x128_S2000x128_1_0_0_1_n_n.contr.Idx) :
    (dot_S2000x384_S384x128_S2000x128_1_0_0_1_n_n.lhsIdx i q 1).val = (q ⟨0, by decide⟩).val :=
  dot_S2000x384_S384x128_S2000x128_1_0_0_1_n_n.lhsIdx_val_of_single rfl i q
private theorem dD_r0 (i : S2000x128.Idx) (q : dot_S2000x384_S384x128_S2000x128_1_0_0_1_n_n.contr.Idx) :
    (dot_S2000x384_S384x128_S2000x128_1_0_0_1_n_n.rhsIdx i q 0).val = (q ⟨0, by decide⟩).val :=
  dot_S2000x384_S384x128_S2000x128_1_0_0_1_n_n.rhsIdx_val_of_single rfl i q
private theorem dD_r1 (i : S2000x128.Idx) (q : dot_S2000x384_S384x128_S2000x128_1_0_0_1_n_n.contr.Idx) :
    (dot_S2000x384_S384x128_S2000x128_1_0_0_1_n_n.rhsIdx i q 1).val = (i 1).val := by
  unfold DotDims.rhsIdx
  rw [dif_neg (show ¬(1 : Fin S384x128.rank) ∈ dot_S2000x384_S384x128_S2000x128_1_0_0_1_n_n.rhsBatch by decide),
    dif_pos (show (1 : Fin S384x128.rank) ∈ dot_S2000x384_S384x128_S2000x128_1_0_0_1_n_n.rhsNonContracting by decide)]
  rfl
/-- The product of a [2000 × 384] and a [384 × 128] matrix into a zero accumulator, at (p, q). -/
private theorem dD_at {φ₁ φ₂ : FTy} (l : FVec Ideal S2000x384 φ₁) (r : FVec Ideal S384x128 φ₂) (p : Fin 2000) (q : Fin 128) :
    matmul dot_S2000x384_S384x128_S2000x128_1_0_0_1_n_n none l r (constant (F := Ideal) S2000x128 .f32 0x00000000#32) (ix2 p q)
      = ∑ k : Fin 384, l (ix2 p k) * r (ix2 k q) :=
  Idealize.ShloMosaic.MatmulAt.matmul_zero_at dot_S2000x384_S384x128_S2000x128_1_0_0_1_n_n rfl rfl dD_l0 dD_l1 dD_r0 dD_r1 none l r p q

private theorem dE_l0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
private theorem dE_l1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
private theorem dE_r0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
private theorem dE_r1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl
/-- The product of a [2000 × 128] and a [128 × 128] matrix into a zero accumulator, at (p, q). -/
private theorem dE_at {φ₁ φ₂ : FTy} (l : FVec Ideal S2000x128 φ₁) (r : FVec Ideal S128x128 φ₂) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) :=
  Idealize.ShloMosaic.MatmulAt.matmul_zero_at dot_S2000x128_S128x128_S2000x128_1_0_0_1_n_n rfl rfl dE_l0 dE_l1 dE_r0 dE_r1 none l r p q

/-! ## One layer at an entry

A product into a zero accumulator plus a bias row is `lin` of the left operand's row; the activation after it is
`silu`. Stated over any left operand, so that it serves the joined tile and a previous layer's output alike. -/

/-- An affine layer on a tile of 3200 rows of length 385, at (p, q). -/
private theorem affA (l : FVec Ideal S3200x385 .bf16) (W : Vec Ideal S385x128 .f32) (b : Vec Ideal S128 .f32)
    (p : Fin 3200) (q : Fin 128) :
    (matmul dot_S3200x385_S385x128_S3200x128_1_0_0_1_n_n none l (truncf .bf16 W bitsLt_bf16_f32)
        (constant (F := Ideal) S3200x128 .f32 0x00000000#32) (ix2 p q)
      + broadcastTo S3200x128 (shapeCast S1x128 b shapeCasts_S128_S1x128) broadcasts_S1x128_S3200x128 (ix2 p q))
      = Cert.Spec.lin (fun k => l (ix2 p k)) W b q := by
  rw [dA_at, Cert.Spec.bias_apply]
  rfl

/-- An affine layer on a tile of 3200 rows of length 128, at (p, q). -/
private theorem affB (l : FVec Ideal S3200x128 .bf16) (W : Vec Ideal S128x128 .f32) (b : Vec Ideal S128 .f32)
    (p : Fin 3200) (q : Fin 128) :
    (matmul dot_S3200x128_S128x128_S3200x128_1_0_0_1_n_n none l (truncf .bf16 W bitsLt_bf16_f32)
        (constant (F := Ideal) S3200x128 .f32 0x00000000#32) (ix2 p q)
      + broadcastTo S3200x128 (shapeCast S1x128 b shapeCasts_S128_S1x128) broadcasts_S1x128_S3200x128 (ix2 p q))
      = Cert.Spec.lin (fun k => l (ix2 p k)) W b q := by
  rw [dB_at, Cert.Spec.bias_apply]
  rfl

/-- The activated affine layer on rows of length 385, at (p, q). -/
private theorem actA (l : FVec Ideal S3200x385 .bf16) (W : Vec Ideal S385x128 .f32) (b : Vec Ideal S128 .f32)
    (p : Fin 3200) (q : Fin 128) :
    mulf
      (addf (matmul dot_S3200x385_S385x128_S3200x128_1_0_0_1_n_n none l (truncf .bf16 W bitsLt_bf16_f32)
          (constant (F := Ideal) S3200x128 .f32 0x00000000#32))
        (broadcastTo S3200x128 (shapeCast S1x128 b shapeCasts_S128_S1x128) broadcasts_S1x128_S3200x128))
      (logistic (addf (matmul dot_S3200x385_S385x128_S3200x128_1_0_0_1_n_n none l (truncf .bf16 W bitsLt_bf16_f32)
          (constant (F := Ideal) S3200x128 .f32 0x00000000#32))
        (broadcastTo S3200x128 (shapeCast S1x128 b shapeCasts_S128_S1x128) broadcasts_S1x128_S3200x128))) (ix2 p q)
      = Cert.Spec.silu (Cert.Spec.lin (fun k => l (ix2 p k)) W b q) :=
  congrArg Cert.Spec.silu (affA l W b p q)

/-- The activated affine layer on rows of length 128, at (p, q). -/
private theorem actB (l : FVec Ideal S3200x128 .bf16) (W : Vec Ideal S128x128 .f32) (b : Vec Ideal S128 .f32)
    (p : Fin 3200) (q : Fin 128) :
    mulf
      (addf (matmul dot_S3200x128_S128x128_S3200x128_1_0_0_1_n_n none l (truncf .bf16 W bitsLt_bf16_f32)
          (constant (F := Ideal) S3200x128 .f32 0x00000000#32))
        (broadcastTo S3200x128 (shapeCast S1x128 b shapeCasts_S128_S1x128) broadcasts_S1x128_S3200x128))
      (logistic (addf (matmul dot_S3200x128_S128x128_S3200x128_1_0_0_1_n_n none l (truncf .bf16 W bitsLt_bf16_f32)
          (constant (F := Ideal) S3200x128 .f32 0x00000000#32))
        (broadcastTo S3200x128 (shapeCast S1x128 b shapeCasts_S128_S1x128) broadcasts_S1x128_S3200x128))) (ix2 p q)
      = Cert.Spec.silu (Cert.Spec.lin (fun k => l (ix2 p k)) W b q) :=
  congrArg Cert.Spec.silu (affB l W b p q)

/-- An affine layer on a tile of 2000 rows of length 384, at (p, q). -/
private theorem affD (l : FVec Ideal S2000x384 .bf16) (W : Vec Ideal S384x128 .f32) (b : Vec Ideal S128 .f32)
    (p : Fin 2000) (q : Fin 128) :
    (matmul dot_S2000x384_S384x128_S2000x128_1_0_0_1_n_n none l (truncf .bf16 W bitsLt_bf16_f32)
        (constant (F := Ideal) S2000x128 .f32 0x00000000#32) (ix2 p q)
      + broadcastTo S2000x128 (shapeCast S1x128 b shapeCasts_S128_S1x128) broadcasts_S1x128_S2000x128 (ix2 p q))
      = Cert.Spec.lin (fun k => l (ix2 p k)) W b q := by
  rw [dD_at, Cert.Spec.bias_apply]
  rfl

/-- An affine layer on a tile of 2000 rows of length 128, at (p, q). -/
private theorem affE (l : FVec Ideal S2000x128 .bf16) (W : Vec Ideal S128x128 .f32) (b : Vec Ideal S128 .f32)
    (p : Fin 2000) (q : Fin 128) :
    (matmul dot_S2000x128_S128x128_S2000x128_1_0_0_1_n_n none l (truncf .bf16 W bitsLt_bf16_f32)
        (constant (F := Ideal) S2000x128 .f32 0x00000000#32) (ix2 p q)
      + broadcastTo S2000x128 (shapeCast S1x128 b shapeCasts_S128_S1x128) broadcasts_S1x128_S2000x128 (ix2 p q))
      = Cert.Spec.lin (fun k => l (ix2 p k)) W b q := by
  rw [dE_at, Cert.Spec.bias_apply]
  rfl

/-- The activated affine layer on 2000 rows of length 384, at (p, q). -/
private theorem actD (l : FVec Ideal S2000x384 .bf16) (W : Vec Ideal S384x128 .f32) (b : Vec Ideal S128 .f32)
    (p : Fin 2000) (q : Fin 128) :
    mulf
      (addf (matmul dot_S2000x384_S384x128_S2000x128_1_0_0_1_n_n none l (truncf .bf16 W bitsLt_bf16_f32)
          (constant (F := Ideal) S2000x128 .f32 0x00000000#32))
        (broadcastTo S2000x128 (shapeCast S1x128 b shapeCasts_S128_S1x128) broadcasts_S1x128_S2000x128))
      (logistic (addf (matmul dot_S2000x384_S384x128_S2000x128_1_0_0_1_n_n none l (truncf .bf16 W bitsLt_bf16_f32)
          (constant (F := Ideal) S2000x128 .f32 0x00000000#32))
        (broadcastTo S2000x128 (shapeCast S1x128 b shapeCasts_S128_S1x128) broadcasts_S1x128_S2000x128))) (ix2 p q)
      = Cert.Spec.silu (Cert.Spec.lin (fun k => l (ix2 p k)) W b q) :=
  congrArg Cert.Spec.silu (affD l W b p q)

/-! ## The stored tiles -/

/-- The message tile the edge kernel stores. -/
theorem pay_msg (x0 x3 : Vec Ideal S3200x128 .f32) (x6 : Vec Ideal S3200x1 .f32) (x8 : Vec Ideal S3200x128 .f32)
    (x11 : Vec Ideal S385x128 .f32) (x14 : Vec Ideal S128 .f32) (x20 : Vec Ideal S128x128 .f32) (x24 : Vec Ideal S128 .f32) :
    k0_pay2 (F := Ideal) x0 x3 x6 x8 x11 x14 x20 x24 = Cert.Spec.Gmsg 3200 x0 x3 x6 x8 x11 x14 x20 x24 := by
  funext j
  obtain ⟨p, q, rfl⟩ : ∃ (p : Fin 3200) (q : Fin 128), j = ix2 p q := ⟨j 0, j 1, eq_ix2 j⟩
  unfold k0_pay2
  rw [shapeCast_self x0, shapeCast_self x3]
  -- the outer activated layer reads row p of the inner layer's output; the inner one reads row p of the joined tile
  refine (actB _ x20 x24 p q).trans ?_
  refine congrArg Cert.Spec.silu (congrArg (fun a => Cert.Spec.lin a x20 x24 q) (funext fun k => ?_))
  refine (actA _ x11 x14 p k).trans ?_
  refine congrArg Cert.Spec.silu (congrArg (fun a => Cert.Spec.lin a x11 x14 k) (funext fun k' => ?_))
  exact Cert.Spec.cat4_apply (R := 3200) _ _ _ _ _ p k'

/-- The weight tile the edge kernel stores. -/
theorem pay_cw (x0 x3 : Vec Ideal S3200x128 .f32) (x6 : Vec Ideal S3200x1 .f32) (x8 : Vec Ideal S3200x128 .f32)
    (x11 : Vec Ideal S385x128 .f32) (x14 : Vec Ideal S128 .f32) (x20 : Vec Ideal S128x128 .f32) (x24 : Vec Ideal S128 .f32)
    (x31 : Vec Ideal S128x128 .f32) (x35 : Vec Ideal S128 .f32) (x41 : Vec Ideal S128x1 .f32) :
    k0_pay1 (F := Ideal) (k0_pay3 x0 x3 x6 x8 x11 x14 x20 x24 x31) x35 x41
      = Cert.Spec.Gcw 3200 x0 x3 x6 x8 x11 x14 x20 x24 x31 x35 x41 := by
  funext j
  obtain ⟨p, q, rfl⟩ : ∃ (p : Fin 3200) (q : Fin 1), j = ix2 p q := ⟨j 0, j 1, eq_ix2 j⟩
  obtain rfl : q = 0 := Subsingleton.elim _ _
  unfold k0_pay1 k0_pay3
  rw [pay_msg]
  -- the product with the one column is a sum over the activated third layer of the message row
  refine (dC_at _ _ p 0).trans ?_
  show (∑ k : Fin 128, (_ : EReal)) = ∑ k : Fin 128, Cert.Spec.silu (Cert.Spec.lin _ x31 x35 k) * x41 (ix2 k 0)
  refine Finset.sum_congr rfl fun k _ => ?_
  refine congrArg (fun a => a * x41 (ix2 k 0)) ?_
  exact actB _ x31 x35 p k

/-- The tile the node kernel stores. -/
theorem pay_node (v0 v2 v5 : Vec Ideal S2000x128 .f32) (v8 : Vec Ideal S384x128 .f32) (v11 : Vec Ideal S128 .f32)
    (v17 : Vec Ideal S128x128 .f32) (v21 : Vec Ideal S128 .f32) :
    k1_pay1 (F := Ideal) v0 v2 v5 v8 v11 v17 v21 = Cert.Spec.Gnode 2000 v0 v2 v5 v8 v11 v17 v21 := by
  funext j
  obtain ⟨p, q, rfl⟩ : ∃ (p : Fin 2000) (q : Fin 128), j = ix2 p q := ⟨j 0, j 1, eq_ix2 j⟩
  unfold k1_pay1
  rw [shapeCast_self v2]
  -- the node's own entry plus the affine layer of the activated layer of the joined row
  refine congrArg (fun a => v0 (ix2 p q) + a) ?_
  refine (affE _ v17 v21 p q).trans ?_
  refine congrArg (fun a => Cert.Spec.lin a v17 v21 q) (funext fun k => ?_)
  refine (actD _ v8 v11 p k).trans ?_
  refine congrArg Cert.Spec.silu (congrArg (fun a => Cert.Spec.lin a v8 v11 k) (funext fun k' => ?_))
  exact Cert.Spec.cat3_apply (R := 2000) _ _ _ _ p k'

end Cert.KernelIdeal.Val

end
-- ==== Proof.EdgeArray.lean ====
/-
  The edge kernel's two result arrays after all 200 grid points.

  Point t reads rows 3200·t … 3200·t + 3199 of the four edge-indexed arrays and the seven weight arrays whole,
  and writes back rows 3200·t … 3200·t + 3199 of the message array and of the weight array. The 200 row tiles
  cover the 640000 rows, and the tile functions read one row at a time, so the arrays end holding `Gmsg` and
  `Gcw` of the whole arrays the region found.
-/
import proofs.«423871_j23063974379744_1_alg».proof.Proof.Gen.KernelIdeal.Frame
import proofs.«423871_j23063974379744_1_alg».proof.Proof.Blocks
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

-- the TensorCore's buffer contents when the region is entered
variable (V : (c : Dev nD) → (b : Ref sig .tc) → Buf (Elt Ideal) ((c : Thread nD τ).loc b))

/-! ## The index maps over the grid, and the windows' blocks as rows of the arrays -/

/-- The pair of zero offsets is the zero function. -/
private theorem hz2 : (![0, 0] : Fin 2 → Nat) = fun _ => 0 := funext fun a => by fin_cases a <;> rfl
/-- The single zero offset is the zero function. -/
private theorem hz1 : (![0] : Fin 1 → Nat) = fun _ => 0 := funext fun a => by fin_cases a; rfl

/-- The six row-tiled windows' block index at point t is (t, 0). -/
private theorem idx_tiled : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

/-- The seven whole-array windows' block index is zero on every axis at every point. -/
private theorem idx_whole : ∀ t : Fin cfg0.N,
    (win0_4.index t (0 : Fin 2) = 0 ∧ win0_4.index t (1 : Fin 2) = 0)
    ∧ win0_5.index t (0 : Fin 1) = 0
    ∧ (win0_6.index t (0 : Fin 2) = 0 ∧ win0_6.index t (1 : Fin 2) = 0)
    ∧ win0_7.index t (0 : Fin 1) = 0
    ∧ (win0_8.index t (0 : Fin 2) = 0 ∧ win0_8.index t (1 : Fin 2) = 0)
    ∧ win0_9.index t (0 : Fin 1) = 0
    ∧ (win0_10.index t (0 : Fin 2) = 0 ∧ win0_10.index t (1 : Fin 2) = 0) :=
  (by decide +kernel : ∀ t : Fin grid0.N, _)

/-- There are 200 grid points. -/
private theorem t_lt (t : Fin cfg0.N) : t.val < 200 := Nat.lt_of_lt_of_eq t.isLt N_0

/-- Entry (p, q) of the source rows' tile at point t is entry (3200·t + p, q) of the array. -/
private theorem blk_hs (c : Dev nD) (t : Fin cfg0.N) (p : Fin 3200) (q : Fin 128) (r : Fin 640000) (hr : r.val = 3200 * t.val + p.val) :
    (iblk0 V c 0 t : S3200x128.Idx → Elt Ideal .f32) (ix2 p q)
      = (V c main_v0 : S640000x128.Idx → Elt Ideal .f32) (ix2 r q) := by
  obtain ⟨e0, e1⟩ := (idx_tiled t).1
  unfold iblk0
  rw [View.read_apply]
  show V c main_v0 _ = V c main_v0 _
  congr 1
  funext a
  apply Fin.ext
  match a with
  | ⟨0, _⟩ => show win0_0.index t (0 : Fin 2) * 3200 + 1 * p.val = r.val; rw [e0, hr]; omega
  | ⟨1, _⟩ => show win0_0.index t (1 : Fin 2) * 128 + 1 * q.val = q.val; rw [e1]; omega

/-- Entry (p, q) of the destination rows' tile at point t is entry (3200·t + p, q) of the array. -/
private theorem blk_hd (c : Dev nD) (t : Fin cfg0.N) (p : Fin 3200) (q : Fin 128) (r : Fin 640000) (hr : r.val = 3200 * t.val + p.val) :
    (iblk0 V c 1 t : S3200x128.Idx → Elt Ideal .f32) (ix2 p q)
      = (V c main_v1 : S640000x128.Idx → Elt Ideal .f32) (ix2 r q) := by
  obtain ⟨e0, e1⟩ := (idx_tiled t).2.1
  unfold iblk0
  rw [View.read_apply]
  show V c main_v1 _ = V c main_v1 _
  congr 1
  funext a
  apply Fin.ext
  match a with
  | ⟨0, _⟩ => show win0_1.index t (0 : Fin 2) * 3200 + 1 * p.val = r.val; rw [e0, hr]; omega
  | ⟨1, _⟩ => show win0_1.index t (1 : Fin 2) * 128 + 1 * q.val = q.val; rw [e1]; omega

/-- Entry (p, q) of the distance column's tile at point t is entry (3200·t + p, q) of the array. -/
private theorem blk_d (c : Dev nD) (t : Fin cfg0.N) (p : Fin 3200) (q : Fin 1) (r : Fin 640000) (hr : r.val = 3200 * t.val + p.val) :
    (iblk0 V c 2 t : S3200x1.Idx → Elt Ideal .f32) (ix2 p q)
      = (V c main_arg2 : S640000x1.Idx → Elt Ideal .f32) (ix2 r q) := by
  obtain ⟨e0, e1⟩ := (idx_tiled t).2.2.1
  unfold iblk0
  rw [View.read_apply]
  show V c main_arg2 _ = V c main_arg2 _
  congr 1
  funext a
  apply Fin.ext
  match a with
  | ⟨0, _⟩ => show win0_2.index t (0 : Fin 2) * 3200 + 1 * p.val = r.val; rw [e0, hr]; omega
  | ⟨1, _⟩ => show win0_2.index t (1 : Fin 2) * 1 + 1 * q.val = q.val; rw [e1]; omega

/-- Entry (p, q) of the edge time rows' tile at point t is entry (3200·t + p, q) of the array. -/
private theorem blk_te (c : Dev nD) (t : Fin cfg0.N) (p : Fin 3200) (q : Fin 128) (r : Fin 640000) (hr : r.val = 3200 * t.val + p.val) :
    (iblk0 V c 3 t : S3200x128.Idx → Elt Ideal .f32) (ix2 p q)
      = (V c main_arg5 : S640000x128.Idx → Elt Ideal .f32) (ix2 r q) := by
  obtain ⟨e0, e1⟩ := (idx_tiled t).2.2.2.1
  unfold iblk0
  rw [View.read_apply]
  show V c main_arg5 _ = V c main_arg5 _
  congr 1
  funext a
  apply Fin.ext
  match a with
  | ⟨0, _⟩ => show win0_3.index t (0 : Fin 2) * 3200 + 1 * p.val = r.val; rw [e0, hr]; omega
  | ⟨1, _⟩ => show win0_3.index t (1 : Fin 2) * 128 + 1 * q.val = q.val; rw [e1]; omega

/-- The first layer's matrix is read whole at every point. -/
private theorem blk_We1 (c : Dev nD) (t : Fin cfg0.N) :
    (iblk0 V c 4 t : S385x128.Idx → Elt Ideal .f32) = (V c main_arg7 : S385x128.Idx → Elt Ideal .f32) := by
  obtain ⟨e0, e1⟩ := (idx_whole t).1
  unfold iblk0
  funext y
  rw [View.read_apply]
  show V c main_arg7 _ = V c main_arg7 y
  congr 1
  funext a
  apply Fin.ext
  match a with
  | ⟨0, _⟩ => show win0_4.index t (0 : Fin 2) * 385 + 1 * (y 0).val = (y 0).val; rw [e0]; omega
  | ⟨1, _⟩ => show win0_4.index t (1 : Fin 2) * 128 + 1 * (y 1).val = (y 1).val; rw [e1]; omega

/-- The first layer's bias is read whole at every point. -/
private theorem blk_be1 (c : Dev nD) (t : Fin cfg0.N) :
    (iblk0 V c 5 t : S128.Idx → Elt Ideal .f32) = (V c main_arg8 : S128.Idx → Elt Ideal .f32) := by
  have e0 := (idx_whole t).2.1
  unfold iblk0
  funext y
  rw [View.read_apply]
  show V c main_arg8 _ = V c main_arg8 y
  congr 1
  funext a
  apply Fin.ext
  match a with
  | ⟨0, _⟩ => show win0_5.index t (0 : Fin 1) * 128 + 1 * (y 0).val = (y 0).val; rw [e0]; omega

/-- The second layer's matrix is read whole at every point. -/
private theorem blk_We2 (c : Dev nD) (t : Fin cfg0.N) :
    (iblk0 V c 6 t : S128x128.Idx → Elt Ideal .f32) = (V c main_arg9 : S128x128.Idx → Elt Ideal .f32) := by
  obtain ⟨e0, e1⟩ := (idx_whole t).2.2.1
  unfold iblk0
  funext y
  rw [View.read_apply]
  show V c main_arg9 _ = V c main_arg9 y
  congr 1
  funext a
  apply Fin.ext
  match a with
  | ⟨0, _⟩ => show win0_6.index t (0 : Fin 2) * 128 + 1 * (y 0).val = (y 0).val; rw [e0]; omega
  | ⟨1, _⟩ => show win0_6.index t (1 : Fin 2) * 128 + 1 * (y 1).val = (y 1).val; rw [e1]; omega

/-- The second layer's bias is read whole at every point. -/
private theorem blk_be2 (c : Dev nD) (t : Fin cfg0.N) :
    (iblk0 V c 7 t : S128.Idx → Elt Ideal .f32) = (V c main_arg10 : S128.Idx → Elt Ideal .f32) := by
  have e0 := (idx_whole t).2.2.2.1
  unfold iblk0
  funext y
  rw [View.read_apply]
  show V c main_arg10 _ = V c main_arg10 y
  congr 1
  funext a
  apply Fin.ext
  match a with
  | ⟨0, _⟩ => show win0_7.index t (0 : Fin 1) * 128 + 1 * (y 0).val = (y 0).val; rw [e0]; omega

/-- The weight layer's matrix is read whole at every point. -/
private theorem blk_Wc1 (c : Dev nD) (t : Fin cfg0.N) :
    (iblk0 V c 8 t : S128x128.Idx → Elt Ideal .f32) = (V c main_arg11 : S128x128.Idx → Elt Ideal .f32) := by
  obtain ⟨e0, e1⟩ := (idx_whole t).2.2.2.2.1
  unfold iblk0
  funext y
  rw [View.read_apply]
  show V c main_arg11 _ = V c main_arg11 y
  congr 1
  funext a
  apply Fin.ext
  match a with
  | ⟨0, _⟩ => show win0_8.index t (0 : Fin 2) * 128 + 1 * (y 0).val = (y 0).val; rw [e0]; omega
  | ⟨1, _⟩ => show win0_8.index t (1 : Fin 2) * 128 + 1 * (y 1).val = (y 1).val; rw [e1]; omega

/-- The weight layer's bias is read whole at every point. -/
private theorem blk_bc1 (c : Dev nD) (t : Fin cfg0.N) :
    (iblk0 V c 9 t : S128.Idx → Elt Ideal .f32) = (V c main_arg12 : S128.Idx → Elt Ideal .f32) := by
  have e0 := (idx_whole t).2.2.2.2.2.1
  unfold iblk0
  funext y
  rw [View.read_apply]
  show V c main_arg12 _ = V c main_arg12 y
  congr 1
  funext a
  apply Fin.ext
  match a with
  | ⟨0, _⟩ => show win0_9.index t (0 : Fin 1) * 128 + 1 * (y 0).val = (y 0).val; rw [e0]; omega

/-- The weight layer's column is read whole at every point. -/
private theorem blk_Wc2 (c : Dev nD) (t : Fin cfg0.N) :
    (iblk0 V c 10 t : S128x1.Idx → Elt Ideal .f32) = (V c main_arg13 : S128x1.Idx → Elt Ideal .f32) := by
  obtain ⟨e0, e1⟩ := (idx_whole t).2.2.2.2.2.2
  unfold iblk0
  funext y
  rw [View.read_apply]
  show V c main_arg13 _ = V c main_arg13 y
  congr 1
  funext a
  apply Fin.ext
  match a with
  | ⟨0, _⟩ => show win0_10.index t (0 : Fin 2) * 128 + 1 * (y 0).val = (y 0).val; rw [e0]; omega
  | ⟨1, _⟩ => show win0_10.index t (1 : Fin 2) * 1 + 1 * (y 1).val = (y 1).val; rw [e1]; omega

/-! ## The message array -/

/-- The message of edge 3200·t + p of the whole arrays is the message of edge p of tile t. -/
private theorem Gmsg_tile (c : Dev nD) (t : Fin cfg0.N) (p : Fin 3200) (q : Fin 128) (r : Fin 640000) (hr : r.val = 3200 * t.val + p.val) :
    Cert.Spec.Gmsg 3200 (iblk0 V c 0 t) (iblk0 V c 1 t) (iblk0 V c 2 t) (iblk0 V c 3 t)
        (V c main_arg7) (V c main_arg8) (V c main_arg9) (V c main_arg10) (ix2 p q)
      = Cert.Spec.Gmsg 640000 (V c main_v0) (V c main_v1) (V c main_arg2) (V c main_arg5)
        (V c main_arg7) (V c main_arg8) (V c main_arg9) (V c main_arg10) (ix2 r q) := by
  have h0 : Cert.Spec.row (iblk0 V c 0 t : S3200x128.Idx → Elt Ideal .f32) p = Cert.Spec.row (V c main_v0 : S640000x128.Idx → Elt Ideal .f32) r :=
    funext fun k => blk_hs V c t p k r hr
  have h1 : Cert.Spec.row (iblk0 V c 1 t : S3200x128.Idx → Elt Ideal .f32) p = Cert.Spec.row (V c main_v1 : S640000x128.Idx → Elt Ideal .f32) r :=
    funext fun k => blk_hd V c t p k r hr
  have h2 : (iblk0 V c 2 t : S3200x1.Idx → Elt Ideal .f32) (ix2 p 0) = (V c main_arg2 : S640000x1.Idx → Elt Ideal .f32) (ix2 r 0) :=
    blk_d V c t p 0 r hr
  have h3 : Cert.Spec.row (iblk0 V c 3 t : S3200x128.Idx → Elt Ideal .f32) p = Cert.Spec.row (V c main_arg5 : S640000x128.Idx → Elt Ideal .f32) r :=
    funext fun k => blk_te V c t p k r hr
  show Cert.Spec.edgeMsg (Cert.Spec.row (iblk0 V c 0 t : S3200x128.Idx → Elt Ideal .f32) p) (Cert.Spec.row (iblk0 V c 1 t : S3200x128.Idx → Elt Ideal .f32) p)
      ((iblk0 V c 2 t : S3200x1.Idx → Elt Ideal .f32) (ix2 p 0)) (Cert.Spec.row (iblk0 V c 3 t : S3200x128.Idx → Elt Ideal .f32) p)
      (V c main_arg7) (V c main_arg8) (V c main_arg9) (V c main_arg10) q
    = Cert.Spec.edgeMsg (Cert.Spec.row (V c main_v0 : S640000x128.Idx → Elt Ideal .f32) r) (Cert.Spec.row (V c main_v1 : S640000x128.Idx → Elt Ideal .f32) r)
      ((V c main_arg2 : S640000x1.Idx → Elt Ideal .f32) (ix2 r 0)) (Cert.Spec.row (V c main_arg5 : S640000x128.Idx → Elt Ideal .f32) r)
      (V c main_arg7) (V c main_arg8) (V c main_arg9) (V c main_arg10) q
  rw [h0, h1, h2, h3]

/-- What point t writes back to the message array is tile t of the messages of the whole arrays. -/
private theorem flushed_msg (c : Dev nD) (t : Fin cfg0.N) :
    (dat0 (F := Ideal) V c).flushed 11 t
      = ((cfg0.win 11).blk t).view.read (Elt Ideal)
          (Cert.Spec.Gmsg 640000 (V c main_v0) (V c main_v1) (V c main_arg2) (V c main_arg5)
            (V c main_arg7) (V c main_arg8) (V c main_arg9) (V c main_arg10)) := by
  show (cfg0.win 11).cut (grid0.coords t) ((dat0 (F := Ideal) V c).after 11 t) = _
  rw [after0_11]
  unfold out0_11
  rw [View.canon_unit_zero hz2]
  simp only [View.ld_unit_zero (S := S3200x128) hz2, View.ld_unit_zero (S := S3200x1) hz2, View.ld_unit_zero (S := S385x128) hz2,
    View.ld_unit_zero (S := S128) hz1, View.ld_unit_zero (S := S128x128) hz2]
  rw [pay_msg, blk_We1 V c t, blk_be1 V c t, blk_We2 V c t, blk_be2 V c t]
  funext y
  obtain ⟨p, q, rfl⟩ : ∃ (p : Fin 3200) (q : Fin 128), y = ix2 p q := ⟨y 0, y 1, eq_ix2 y⟩
  obtain ⟨e0, e1⟩ := (idx_tiled t).2.2.2.2.1
  have ht := t_lt t
  have hemb : ((cfg0.win 11).blk t).view.emb (ix2 p q) = ix2 (⟨3200 * t.val + p.val, by omega⟩ : Fin 640000) q := by
    funext a
    apply Fin.ext
    match a with
    | ⟨0, _⟩ => show win0_11.index t (0 : Fin 2) * 3200 + 1 * p.val = 3200 * t.val + p.val; rw [e0]; omega
    | ⟨1, _⟩ => show win0_11.index t (1 : Fin 2) * 128 + 1 * q.val = q.val; rw [e1]; omega
  rw [View.read_apply, hemb]
  exact Gmsg_tile V c t p q _ rfl

/-- An index of the message array is in point t's tile iff each coordinate is in the tile's range on its axis. -/
private theorem mem_blk_msg (t : Fin cfg0.N) (i : S640000x128.Idx) :
    i ∈ ((cfg0.win 11).blk t).view.set
      ↔ ∀ a : Fin 2, win0_11.index t a * S3200x128.size a ≤ (i a).val ∧ (i a).val < win0_11.index t a * S3200x128.size a + S3200x128.size a := by
  show i ∈ ((View.whole main_v2_0).slice (win0_11.rect t)).set ↔ _
  rw [View.set_slice_whole, Rect.mem_set_unit]
  exact Iff.rfl

/-- Every row of the message array is in the tile of the point its row number divided by 3200 names. -/
private theorem cover_msg (i : S640000x128.Idx) :
    ∃ t : Fin cfg0.N, (cfg0.win 11).flush t = true ∧ i ∈ ((cfg0.win 11).blk t).view.set := by
  have hi0 : (i 0).val < 640000 := (i 0).isLt
  have hi1 : (i 1).val < 128 := (i 1).isLt
  have hN : cfg0.N = 200 := N_0
  let t : Fin cfg0.N := ⟨(i 0).val / 3200, by rw [hN]; omega⟩
  have htv : t.val = (i 0).val / 3200 := rfl
  obtain ⟨e0, e1⟩ := (idx_tiled t).2.2.2.2.1
  refine ⟨t, flush0_11 t, ?_⟩
  rw [mem_blk_msg]
  intro a
  match a with
  | ⟨0, _⟩ =>
    show win0_11.index t (0 : Fin 2) * 3200 ≤ (i 0).val ∧ (i 0).val < win0_11.index t (0 : Fin 2) * 3200 + 3200
    rw [e0, htv]; omega
  | ⟨1, _⟩ =>
    show win0_11.index t (1 : Fin 2) * 128 ≤ (i 1).val ∧ (i 1).val < win0_11.index t (1 : Fin 2) * 128 + 128
    rw [e1]; omega

/-- The message array after the region. -/
theorem arr0_msg (c : Dev nD) :
    (dat0 (F := Ideal) V c).arrAt 11 cfg0.N
      = Cert.Spec.Gmsg 640000 (V c main_v0) (V c main_v1) (V c main_arg2) (V c main_arg5)
          (V c main_arg7) (V c main_arg8) (V c main_arg9) (V c main_arg10) :=
  (dat0 (F := Ideal) V c).arrAt_eq_of_cover 11 _ (fun t _ => flushed_msg V c t) cover_msg

/-! ## The weight array -/

/-- The weight of edge 3200·t + p of the whole arrays is the weight of edge p of tile t. -/
private theorem Gcw_tile (c : Dev nD) (t : Fin cfg0.N) (p : Fin 3200) (q : Fin 1) (r : Fin 640000) (hr : r.val = 3200 * t.val + p.val) :
    Cert.Spec.Gcw 3200 (iblk0 V c 0 t) (iblk0 V c 1 t) (iblk0 V c 2 t) (iblk0 V c 3 t)
        (V c main_arg7) (V c main_arg8) (V c main_arg9) (V c main_arg10) (V c main_arg11) (V c main_arg12) (V c main_arg13) (ix2 p q)
      = Cert.Spec.Gcw 640000 (V c main_v0) (V c main_v1) (V c main_arg2) (V c main_arg5)
        (V c main_arg7) (V c main_arg8) (V c main_arg9) (V c main_arg10) (V c main_arg11) (V c main_arg12) (V c main_arg13) (ix2 r q) := by
  have h0 : Cert.Spec.row (iblk0 V c 0 t : S3200x128.Idx → Elt Ideal .f32) p = Cert.Spec.row (V c main_v0 : S640000x128.Idx → Elt Ideal .f32) r :=
    funext fun k => blk_hs V c t p k r hr
  have h1 : Cert.Spec.row (iblk0 V c 1 t : S3200x128.Idx → Elt Ideal .f32) p = Cert.Spec.row (V c main_v1 : S640000x128.Idx → Elt Ideal .f32) r :=
    funext fun k => blk_hd V c t p k r hr
  have h2 : (iblk0 V c 2 t : S3200x1.Idx → Elt Ideal .f32) (ix2 p 0) = (V c main_arg2 : S640000x1.Idx → Elt Ideal .f32) (ix2 r 0) :=
    blk_d V c t p 0 r hr
  have h3 : Cert.Spec.row (iblk0 V c 3 t : S3200x128.Idx → Elt Ideal .f32) p = Cert.Spec.row (V c main_arg5 : S640000x128.Idx → Elt Ideal .f32) r :=
    funext fun k => blk_te V c t p k r hr
  show Cert.Spec.edgeWeight (Cert.Spec.edgeMsg (Cert.Spec.row (iblk0 V c 0 t : S3200x128.Idx → Elt Ideal .f32) p) (Cert.Spec.row (iblk0 V c 1 t : S3200x128.Idx → Elt Ideal .f32) p)
      ((iblk0 V c 2 t : S3200x1.Idx → Elt Ideal .f32) (ix2 p 0)) (Cert.Spec.row (iblk0 V c 3 t : S3200x128.Idx → Elt Ideal .f32) p)
      (V c main_arg7) (V c main_arg8) (V c main_arg9) (V c main_arg10)) (V c main_arg11) (V c main_arg12) (V c main_arg13)
    = Cert.Spec.edgeWeight (Cert.Spec.edgeMsg (Cert.Spec.row (V c main_v0 : S640000x128.Idx → Elt Ideal .f32) r) (Cert.Spec.row (V c main_v1 : S640000x128.Idx → Elt Ideal .f32) r)
      ((V c main_arg2 : S640000x1.Idx → Elt Ideal .f32) (ix2 r 0)) (Cert.Spec.row (V c main_arg5 : S640000x128.Idx → Elt Ideal .f32) r)
      (V c main_arg7) (V c main_arg8) (V c main_arg9) (V c main_arg10)) (V c main_arg11) (V c main_arg12) (V c main_arg13)
  rw [h0, h1, h2, h3]

/-- What point t writes back to the weight array is tile t of the weights of the whole arrays. -/
private theorem flushed_cw (c : Dev nD) (t : Fin cfg0.N) :
    (dat0 (F := Ideal) V c).flushed 12 t
      = ((cfg0.win 12).blk t).view.read (Elt Ideal)
          (Cert.Spec.Gcw 640000 (V c main_v0) (V c main_v1) (V c main_arg2) (V c main_arg5)
            (V c main_arg7) (V c main_arg8) (V c main_arg9) (V c main_arg10) (V c main_arg11) (V c main_arg12) (V c main_arg13)) := by
  show (cfg0.win 12).cut (grid0.coords t) ((dat0 (F := Ideal) V c).after 12 t) = _
  rw [after0_12]
  unfold out0_12
  rw [View.canon_unit_zero hz2]
  simp only [View.ld_unit_zero (S := S3200x128) hz2, View.ld_unit_zero (S := S3200x1) hz2, View.ld_unit_zero (S := S385x128) hz2,
    View.ld_unit_zero (S := S128) hz1, View.ld_unit_zero (S := S128x128) hz2, View.ld_unit_zero (S := S128x1) hz2]
  rw [pay_cw, blk_We1 V c t, blk_be1 V c t, blk_We2 V c t, blk_be2 V c t, blk_Wc1 V c t, blk_bc1 V c t, blk_Wc2 V c t]
  funext y
  obtain ⟨p, q, rfl⟩ : ∃ (p : Fin 3200) (q : Fin 1), y = ix2 p q := ⟨y 0, y 1, eq_ix2 y⟩
  obtain ⟨e0, e1⟩ := (idx_tiled t).2.2.2.2.2
  have ht := t_lt t
  have hq : q.val < 1 := q.isLt
  have hemb : ((cfg0.win 12).blk t).view.emb (ix2 p q) = ix2 (⟨3200 * t.val + p.val, by omega⟩ : Fin 640000) q := by
    funext a
    apply Fin.ext
    match a with
    | ⟨0, _⟩ => show win0_12.index t (0 : Fin 2) * 3200 + 1 * p.val = 3200 * t.val + p.val; rw [e0]; omega
    | ⟨1, _⟩ => show win0_12.index t (1 : Fin 2) * 1 + 1 * q.val = q.val; rw [e1]; omega
  rw [View.read_apply, hemb]
  exact Gcw_tile V c t p q _ rfl

/-- An index of the weight array is in point t's tile iff each coordinate is in the tile's range on its axis. -/
private theorem mem_blk_cw (t : Fin cfg0.N) (i : S640000x1.Idx) :
    i ∈ ((cfg0.win 12).blk t).view.set
      ↔ ∀ a : Fin 2, win0_12.index t a * S3200x1.size a ≤ (i a).val ∧ (i a).val < win0_12.index t a * S3200x1.size a + S3200x1.size a := by
  show i ∈ ((View.whole main_v2_1).slice (win0_12.rect t)).set ↔ _
  rw [View.set_slice_whole, Rect.mem_set_unit]
  exact Iff.rfl

/-- Every row of the weight array is in the tile of the point its row number divided by 3200 names. -/
private theorem cover_cw (i : S640000x1.Idx) :
    ∃ t : Fin cfg0.N, (cfg0.win 12).flush t = true ∧ i ∈ ((cfg0.win 12).blk t).view.set := by
  have hi0 : (i 0).val < 640000 := (i 0).isLt
  have hi1 : (i 1).val < 1 := (i 1).isLt
  have hN : cfg0.N = 200 := N_0
  let t : Fin cfg0.N := ⟨(i 0).val / 3200, by rw [hN]; omega⟩
  have htv : t.val = (i 0).val / 3200 := rfl
  obtain ⟨e0, e1⟩ := (idx_tiled t).2.2.2.2.2
  refine ⟨t, flush0_12 t, ?_⟩
  rw [mem_blk_cw]
  intro a
  match a with
  | ⟨0, _⟩ =>
    show win0_12.index t (0 : Fin 2) * 3200 ≤ (i 0).val ∧ (i 0).val < win0_12.index t (0 : Fin 2) * 3200 + 3200
    rw [e0, htv]; omega
  | ⟨1, _⟩ =>
    show win0_12.index t (1 : Fin 2) * 1 ≤ (i 1).val ∧ (i 1).val < win0_12.index t (1 : Fin 2) * 1 + 1
    rw [e1]; omega

/-- The weight array after the region. -/
theorem arr0_cw (c : Dev nD) :
    (dat0 (F := Ideal) V c).arrAt 12 cfg0.N
      = Cert.Spec.Gcw 640000 (V c main_v0) (V c main_v1) (V c main_arg2) (V c main_arg5)
          (V c main_arg7) (V c main_arg8) (V c main_arg9) (V c main_arg10)
          (V c main_arg11) (V c main_arg12) (V c main_arg13) :=
  (dat0 (F := Ideal) V c).arrAt_eq_of_cover 12 _ (fun t _ => flushed_cw V c t) cover_cw

end Cert.KernelIdeal.Val

end
-- ==== Proof.NodeArray.lean ====
/-
  The node kernel's result array after all 25 grid points.

  Point t reads rows 2000·t … 2000·t + 1999 of the three node-indexed arrays and the four weight arrays whole,
  and writes back rows 2000·t … 2000·t + 1999 of the result. The 25 row tiles cover the 50000 rows, and the
  tile function reads one row at a time, so the array ends holding `Gnode` of the whole arrays the region found.
-/
import proofs.«423871_j23063974379744_1_alg».proof.Proof.Gen.KernelIdeal.Frame
import proofs.«423871_j23063974379744_1_alg».proof.Proof.Blocks
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

-- the TensorCore's buffer contents when the region is entered
variable (V : (c : Dev nD) → (b : Ref sig .tc) → Buf (Elt Ideal) ((c : Thread nD τ).loc b))

/-- The zero offset vector of rank 2, as the constant function. -/
private theorem hz2 : (![0, 0] : Fin 2 → Nat) = fun _ => 0 := funext fun a => by fin_cases a <;> rfl
/-- The zero offset vector of rank 1, as the constant function. -/
private theorem hz1 : (![0] : Fin 1 → Nat) = fun _ => 0 := funext fun a => by fin_cases a <;> rfl

/-! ## The index maps over the 25 grid points

The three node-indexed inputs and the result are tiled by rows: point t has block index (t, 0). The four weight
arrays have block index 0 on every axis at every point. -/

private theorem tile_index0 : ∀ t : Fin cfg1.N, win1_0.index t (0 : Fin 2) = t.val ∧ win1_0.index t (1 : Fin 2) = 0 :=
  (by decide +kernel : ∀ t : Fin grid1.N, _)
private theorem tile_index1 : ∀ t : Fin cfg1.N, win1_1.index t (0 : Fin 2) = t.val ∧ win1_1.index t (1 : Fin 2) = 0 :=
  (by decide +kernel : ∀ t : Fin grid1.N, _)
private theorem tile_index2 : ∀ t : Fin cfg1.N, win1_2.index t (0 : Fin 2) = t.val ∧ win1_2.index t (1 : Fin 2) = 0 :=
  (by decide +kernel : ∀ t : Fin grid1.N, _)
private theorem tile_index3 : ∀ t : Fin cfg1.N, win1_3.index t (0 : Fin 2) = 0 ∧ win1_3.index t (1 : Fin 2) = 0 :=
  (by decide +kernel : ∀ t : Fin grid1.N, _)
private theorem tile_index4 : ∀ t : Fin cfg1.N, win1_4.index t (0 : Fin 1) = 0 :=
  (by decide +kernel : ∀ t : Fin grid1.N, _)
private theorem tile_index5 : ∀ t : Fin cfg1.N, win1_5.index t (0 : Fin 2) = 0 ∧ win1_5.index t (1 : Fin 2) = 0 :=
  (by decide +kernel : ∀ t : Fin grid1.N, _)
private theorem tile_index6 : ∀ t : Fin cfg1.N, win1_6.index t (0 : Fin 1) = 0 :=
  (by decide +kernel : ∀ t : Fin grid1.N, _)
private theorem tile_index7 : ∀ t : Fin cfg1.N, win1_7.index t (0 : Fin 2) = t.val ∧ win1_7.index t (1 : Fin 2) = 0 :=
  (by decide +kernel : ∀ t : Fin grid1.N, _)

/-! ## Each input's block at a point, as entries of its array -/

/-- Tile t of the node features, at row p and column q, is the array's entry at row 2000·t + p and column q: a tile's
    coordinate in the array is (tile index) × (tile extent) + (coordinate inside the tile). -/
private theorem blk0_apply (c : Dev nD) (t : Fin cfg1.N) (p : Fin 2000) (q : Fin 128) (h : 2000 * t.val + p.val < 50000) :
    (iblk1 (F := Ideal) V c 0 t : Vec Ideal S2000x128 .f32) (ix2 p q)
      = (V c main_arg0 : S50000x128.Idx → Elt Ideal .f32) (ix2 ⟨2000 * t.val + p.val, h⟩ q) := by
  have e0 : win1_0.index t (0 : Fin 2) = t.val := (tile_index0 t).1
  have e1 : win1_0.index t (1 : Fin 2) = 0 := (tile_index0 t).2
  unfold iblk1
  rw [View.read_apply]
  show V c main_arg0 _ = V c main_arg0 _
  congr 1
  funext a
  apply Fin.ext
  match a with
  | ⟨0, _⟩ => show win1_0.index t 0 * 2000 + 1 * p.val = 2000 * t.val + p.val; rw [e0]; omega
  | ⟨1, _⟩ => show win1_0.index t 1 * 128 + 1 * q.val = q.val; rw [e1]; omega

/-- So row p of tile t is row 2000·t + p of the array. -/
private theorem row0_eq (c : Dev nD) (t : Fin cfg1.N) (p : Fin 2000) (h : 2000 * t.val + p.val < 50000) :
    Cert.Spec.row (iblk1 (F := Ideal) V c 0 t : Vec Ideal S2000x128 .f32) p
      = Cert.Spec.row (V c main_arg0 : S50000x128.Idx → Elt Ideal .f32) ⟨2000 * t.val + p.val, h⟩ :=
  funext fun q => blk0_apply V c t p q h

/-- Tile t of the summed messages, at row p and column q, is the array's entry at row 2000·t + p and column q: a tile's
    coordinate in the array is (tile index) × (tile extent) + (coordinate inside the tile). -/
private theorem blk1_apply (c : Dev nD) (t : Fin cfg1.N) (p : Fin 2000) (q : Fin 128) (h : 2000 * t.val + p.val < 50000) :
    (iblk1 (F := Ideal) V c 1 t : Vec Ideal S2000x128 .f32) (ix2 p q)
      = (V c main_v10 : S50000x128.Idx → Elt Ideal .f32) (ix2 ⟨2000 * t.val + p.val, h⟩ q) := by
  have e0 : win1_1.index t (0 : Fin 2) = t.val := (tile_index1 t).1
  have e1 : win1_1.index t (1 : Fin 2) = 0 := (tile_index1 t).2
  unfold iblk1
  rw [View.read_apply]
  show V c main_v10 _ = V c main_v10 _
  congr 1
  funext a
  apply Fin.ext
  match a with
  | ⟨0, _⟩ => show win1_1.index t 0 * 2000 + 1 * p.val = 2000 * t.val + p.val; rw [e0]; omega
  | ⟨1, _⟩ => show win1_1.index t 1 * 128 + 1 * q.val = q.val; rw [e1]; omega

/-- So row p of tile t is row 2000·t + p of the array. -/
private theorem row1_eq (c : Dev nD) (t : Fin cfg1.N) (p : Fin 2000) (h : 2000 * t.val + p.val < 50000) :
    Cert.Spec.row (iblk1 (F := Ideal) V c 1 t : Vec Ideal S2000x128 .f32) p
      = Cert.Spec.row (V c main_v10 : S50000x128.Idx → Elt Ideal .f32) ⟨2000 * t.val + p.val, h⟩ :=
  funext fun q => blk1_apply V c t p q h

/-- Tile t of the time embeddings, at row p and column q, is the array's entry at row 2000·t + p and column q: a tile's
    coordinate in the array is (tile index) × (tile extent) + (coordinate inside the tile). -/
private theorem blk2_apply (c : Dev nD) (t : Fin cfg1.N) (p : Fin 2000) (q : Fin 128) (h : 2000 * t.val + p.val < 50000) :
    (iblk1 (F := Ideal) V c 2 t : Vec Ideal S2000x128 .f32) (ix2 p q)
      = (V c main_arg6 : S50000x128.Idx → Elt Ideal .f32) (ix2 ⟨2000 * t.val + p.val, h⟩ q) := by
  have e0 : win1_2.index t (0 : Fin 2) = t.val := (tile_index2 t).1
  have e1 : win1_2.index t (1 : Fin 2) = 0 := (tile_index2 t).2
  unfold iblk1
  rw [View.read_apply]
  show V c main_arg6 _ = V c main_arg6 _
  congr 1
  funext a
  apply Fin.ext
  match a with
  | ⟨0, _⟩ => show win1_2.index t 0 * 2000 + 1 * p.val = 2000 * t.val + p.val; rw [e0]; omega
  | ⟨1, _⟩ => show win1_2.index t 1 * 128 + 1 * q.val = q.val; rw [e1]; omega

/-- So row p of tile t is row 2000·t + p of the array. -/
private theorem row2_eq (c : Dev nD) (t : Fin cfg1.N) (p : Fin 2000) (h : 2000 * t.val + p.val < 50000) :
    Cert.Spec.row (iblk1 (F := Ideal) V c 2 t : Vec Ideal S2000x128 .f32) p
      = Cert.Spec.row (V c main_arg6 : S50000x128.Idx → Elt Ideal .f32) ⟨2000 * t.val + p.val, h⟩ :=
  funext fun q => blk2_apply V c t p q h

/-- The first layer's [384 × 128] weight matrix is read whole at every point: its one block, at block index (0, 0), is the array. -/
private theorem blk3_eq (c : Dev nD) (t : Fin cfg1.N) :
    (iblk1 (F := Ideal) V c 3 t : Vec Ideal S384x128 .f32) = (V c main_arg14 : S384x128.Idx → Elt Ideal .f32) := by
  have e0 : win1_3.index t (0 : Fin 2) = 0 := (tile_index3 t).1
  have e1 : win1_3.index t (1 : Fin 2) = 0 := (tile_index3 t).2
  funext y
  unfold iblk1
  rw [View.read_apply]
  show V c main_arg14 _ = V c main_arg14 _
  congr 1
  funext a
  apply Fin.ext
  match a with
  | ⟨0, _⟩ => show win1_3.index t 0 * 384 + 1 * (y 0).val = (y 0).val; rw [e0]; omega
  | ⟨1, _⟩ => show win1_3.index t 1 * 128 + 1 * (y 1).val = (y 1).val; rw [e1]; omega

/-- The first layer's bias is read whole at every point: its one block, at block index 0, is the array. -/
private theorem blk4_eq (c : Dev nD) (t : Fin cfg1.N) :
    (iblk1 (F := Ideal) V c 4 t : Vec Ideal S128 .f32) = (V c main_arg15 : S128.Idx → Elt Ideal .f32) := by
  have e0 : win1_4.index t (0 : Fin 1) = 0 := tile_index4 t
  funext y
  unfold iblk1
  rw [View.read_apply]
  show V c main_arg15 _ = V c main_arg15 _
  congr 1
  funext a
  apply Fin.ext
  match a with
  | ⟨0, _⟩ => show win1_4.index t 0 * 128 + 1 * (y 0).val = (y 0).val; rw [e0]; omega

/-- The second layer's [128 × 128] weight matrix is read whole at every point: its one block, at block index (0, 0), is the array. -/
private theorem blk5_eq (c : Dev nD) (t : Fin cfg1.N) :
    (iblk1 (F := Ideal) V c 5 t : Vec Ideal S128x128 .f32) = (V c main_arg16 : S128x128.Idx → Elt Ideal .f32) := by
  have e0 : win1_5.index t (0 : Fin 2) = 0 := (tile_index5 t).1
  have e1 : win1_5.index t (1 : Fin 2) = 0 := (tile_index5 t).2
  funext y
  unfold iblk1
  rw [View.read_apply]
  show V c main_arg16 _ = V c main_arg16 _
  congr 1
  funext a
  apply Fin.ext
  match a with
  | ⟨0, _⟩ => show win1_5.index t 0 * 128 + 1 * (y 0).val = (y 0).val; rw [e0]; omega
  | ⟨1, _⟩ => show win1_5.index t 1 * 128 + 1 * (y 1).val = (y 1).val; rw [e1]; omega

/-- The second layer's bias is read whole at every point: its one block, at block index 0, is the array. -/
private theorem blk6_eq (c : Dev nD) (t : Fin cfg1.N) :
    (iblk1 (F := Ideal) V c 6 t : Vec Ideal S128 .f32) = (V c main_arg17 : S128.Idx → Elt Ideal .f32) := by
  have e0 : win1_6.index t (0 : Fin 1) = 0 := tile_index6 t
  funext y
  unfold iblk1
  rw [View.read_apply]
  show V c main_arg17 _ = V c main_arg17 _
  congr 1
  funext a
  apply Fin.ext
  match a with
  | ⟨0, _⟩ => show win1_6.index t 0 * 128 + 1 * (y 0).val = (y 0).val; rw [e0]; omega

/-! ## What a point writes back, and the cover -/

/-- Where the result's tile t, at row p and column q, sits in the result array: row 2000·t + p, column q. -/
private theorem emb7 (t : Fin cfg1.N) (p : Fin 2000) (q : Fin 128) (h : 2000 * t.val + p.val < 50000) :
    (((cfg1.win 7).blk t).view.emb (ix2 p q) : S50000x128.Idx) = ix2 ⟨2000 * t.val + p.val, h⟩ q := by
  have e0 : win1_7.index t (0 : Fin 2) = t.val := (tile_index7 t).1
  have e1 : win1_7.index t (1 : Fin 2) = 0 := (tile_index7 t).2
  funext a
  apply Fin.ext
  match a with
  | ⟨0, _⟩ => show win1_7.index t 0 * 2000 + 1 * p.val = 2000 * t.val + p.val; rw [e0]; omega
  | ⟨1, _⟩ => show win1_7.index t 1 * 128 + 1 * q.val = q.val; rw [e1]; omega

/-- Point t writes back tile t of `Gnode` of the whole arrays: the stored tile is `Gnode` at 2000 rows of the
    loaded tiles, whose row p reads row p of each node-indexed tile, which is row 2000·t + p of the array, and
    the weight arrays whole. -/
private theorem flushed_node (c : Dev nD) (t : Fin cfg1.N) :
    (dat1 (F := Ideal) V c).flushed 7 t = ((cfg1.win 7).blk t).view.read (Elt Ideal)
      (Cert.Spec.Gnode 50000 (V c main_arg0) (V c main_v10) (V c main_arg6)
          (V c main_arg14) (V c main_arg15) (V c main_arg16) (V c main_arg17)) := by
  show (cfg1.win 7).cut (grid1.coords t) ((dat1 (F := Ideal) V c).after 7 t) = _
  rw [after1_7]
  unfold out1_7
  rw [View.canon_unit_zero hz2]
  simp only [View.ld_unit_zero (S := S2000x128) hz2, View.ld_unit_zero (S := S384x128) hz2,
    View.ld_unit_zero (S := S128x128) hz2, View.ld_unit_zero (S := S128) hz1]
  rw [pay_node, blk3_eq, blk4_eq, blk5_eq, blk6_eq]
  funext y
  obtain ⟨p, q, rfl⟩ : ∃ (p : Fin 2000) (q : Fin 128), y = ix2 p q := ⟨y 0, y 1, eq_ix2 y⟩
  have hN : cfg1.N = 25 := N_1
  have h : 2000 * t.val + p.val < 50000 := by have := t.isLt; have := p.isLt; omega
  rw [View.read_apply, emb7 t p q h]
  show Cert.Spec.nodeUpd (Cert.Spec.row (iblk1 (F := Ideal) V c 0 t : Vec Ideal S2000x128 .f32) p)
      (Cert.Spec.row (iblk1 (F := Ideal) V c 1 t : Vec Ideal S2000x128 .f32) p)
      (Cert.Spec.row (iblk1 (F := Ideal) V c 2 t : Vec Ideal S2000x128 .f32) p) _ _ _ _ q = _
  rw [row0_eq V c t p h, row1_eq V c t p h, row2_eq V c t p h]
  rfl

/-- An index of the result array is in point t's tile iff each coordinate is in the tile's range on its axis. -/
private theorem mem_blk7 (t : Fin cfg1.N) (i : S50000x128.Idx) :
    i ∈ ((cfg1.win 7).blk t).view.set ↔ ∀ a : Fin 2, win1_7.index t a * S2000x128.size a ≤ (i a).val
      ∧ (i a).val < win1_7.index t a * S2000x128.size a + S2000x128.size a := by
  show i ∈ ((View.whole main_v11).slice (win1_7.rect t)).set ↔ _
  rw [View.set_slice_whole, Rect.mem_set_unit]
  exact Iff.rfl

/-- The updated node features after the region. -/
theorem arr1_node (c : Dev nD) :
    (dat1 (F := Ideal) V c).arrAt 7 cfg1.N
      = Cert.Spec.Gnode 50000 (V c main_arg0) (V c main_v10) (V c main_arg6)
          (V c main_arg14) (V c main_arg15) (V c main_arg16) (V c main_arg17) :=
  -- row r of the result lies in tile r / 2000, and every point writes its tile back
  (dat1 (F := Ideal) V c).arrAt_eq_of_cover 7 _ (fun t _ => flushed_node V c t) (fun (i : S50000x128.Idx) => by
    have hi0 : (i 0).val < 50000 := (i 0).isLt
    have hi1 : (i 1).val < 128 := (i 1).isLt
    have hN : cfg1.N = 25 := N_1
    have ht : (i 0).val / 2000 < cfg1.N := by rw [hN]; omega
    have e0 : win1_7.index ⟨(i 0).val / 2000, ht⟩ (0 : Fin 2) = (i 0).val / 2000 := (tile_index7 ⟨(i 0).val / 2000, ht⟩).1
    have e1 : win1_7.index ⟨(i 0).val / 2000, ht⟩ (1 : Fin 2) = 0 := (tile_index7 ⟨(i 0).val / 2000, ht⟩).2
    refine ⟨⟨(i 0).val / 2000, ht⟩, flush1_7 _, ?_⟩
    rw [mem_blk7]
    intro a
    match a with
    | ⟨0, _⟩ =>
      show win1_7.index ⟨(i 0).val / 2000, ht⟩ 0 * 2000 ≤ (i 0).val
        ∧ (i 0).val < win1_7.index ⟨(i 0).val / 2000, ht⟩ 0 * 2000 + 2000
      rw [e0]; omega
    | ⟨1, _⟩ =>
      show win1_7.index ⟨(i 0).val / 2000, ht⟩ 1 * 128 ≤ (i 1).val
        ∧ (i 1).val < win1_7.index ⟨(i 0).val / 2000, ht⟩ 1 * 128 + 128
      rw [e1]; omega)

end Cert.KernelIdeal.Val

end
-- ==== Proof.KernelValue.lean ====
/-
  What the kernel's @main returns, as functions of the arguments it was launched with.

  The messages and coordinate weights are the row functions of the two gathered feature arrays and the edge
  inputs; the coordinate update is the scatter-add, by source node, of each edge's coordinate difference times
  its weight; the node update is the row function of the node features, the messages scatter-added by
  destination node, and the node time embedding. Each is read off the boundary contents of the run: the second
  region's result array at what it found on entry, that at what the host stretch between the regions made of
  the first region's result arrays, those at what the first region found.
-/
import proofs.«423871_j23063974379744_1_alg».proof.Proof.HostFold
import proofs.«423871_j23063974379744_1_alg».proof.Proof.EdgeArray
import proofs.«423871_j23063974379744_1_alg».proof.Proof.NodeArray
import proofs.«423871_j23063974379744_1_alg».proof.Proof.KernelRun

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The node features gathered by the source indices and by the destination indices. -/
def hsrc (c : Dev nD) : FVec Ideal S640000x128 .f32 := takeK (m ((c : Thread nD τ).loc main_arg0)) (m ((c : Thread nD τ).loc main_arg3))
@[inherit_doc hsrc]
def hdst (c : Dev nD) : FVec Ideal S640000x128 .f32 := takeK (m ((c : Thread nD τ).loc main_arg0)) (m ((c : Thread nD τ).loc main_arg4))

/-- Every edge's message. -/
def msgs (c : Dev nD) : FVec Ideal S640000x128 .f32 :=
  Cert.Spec.Gmsg 640000 (hsrc m c) (hdst m c) (m ((c : Thread nD τ).loc main_arg2)) (m ((c : Thread nD τ).loc main_arg5)) (m ((c : Thread nD τ).loc main_arg7)) (m ((c : Thread nD τ).loc main_arg8)) (m ((c : Thread nD τ).loc main_arg9)) (m ((c : Thread nD τ).loc main_arg10))

/-- Every edge's coordinate weight. -/
def weights (c : Dev nD) : FVec Ideal S640000x1 .f32 :=
  Cert.Spec.Gcw 640000 (hsrc m c) (hdst m c) (m ((c : Thread nD τ).loc main_arg2)) (m ((c : Thread nD τ).loc main_arg5)) (m ((c : Thread nD τ).loc main_arg7)) (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))

/-- The messages summed by destination node. -/
def msgSum (c : Dev nD) : FVec Ideal S50000x128 .f32 :=
  Host.scatterAdd scatter_S50000x128_S640000x1_S640000x128_1_0_0_1
    (broadcastInDim S50000x128 ![] bcast_S_S50000x128 (constant S_ .f32 0x00000000#32))
    (broadcastInDim S640000x1 ![0] bcast_S640000_S640000x1_0 (m ((c : Thread nD τ).loc main_arg4)))
    (msgs m c)

/-- The updated node features. -/
def nodeOut (c : Dev nD) : Buf (Elt Ideal) ((c : Thread nD τ).loc main_v11) :=
  Cert.Spec.Gnode 50000 (m ((c : Thread nD τ).loc main_arg0)) (msgSum m c) (m ((c : Thread nD τ).loc main_arg6)) (m ((c : Thread nD τ).loc main_arg14)) (m ((c : Thread nD τ).loc main_arg15)) (m ((c : Thread nD τ).loc main_arg16)) (m ((c : Thread nD τ).loc main_arg17))

/-- The coordinate updates: the weighted coordinate differences summed by source node. -/
def coordOut (c : Dev nD) : Buf (Elt Ideal) ((c : Thread nD τ).loc main_v7) :=
  Host.scatterAdd scatter_S50000x3_S640000x1_S640000x3_1_0_0_1
    (broadcastInDim S50000x3 ![] bcast_S_S50000x3 (constant S_ .f32 0x00000000#32))
    (broadcastInDim S640000x1 ![0] bcast_S640000_S640000x1_0 (m ((c : Thread nD τ).loc main_arg3)))
    (mulf (m ((c : Thread nD τ).loc main_arg1)) (broadcastInDim S640000x3 ![0, 1] bcast_S640000x1_S640000x3_0_1 (weights m c)))

/-- The first region's message array at its exit. -/
theorem W3_msg_eq (c : Dev nD) : W3 m ρ c (Proc.devRef .tc main_v2_0) = msgs m c := by
  have f0 : V2 m ρ c main_v0 = hsrc m c := W2_v0 m ρ c
  have f1 : V2 m ρ c main_v1 = hdst m c := W2_v1 m ρ c
  have f2 : V2 m ρ c main_arg2 = (m ((c : Thread nD τ).loc main_arg2)) := W2_arg2 m ρ c
  have f5 : V2 m ρ c main_arg5 = (m ((c : Thread nD τ).loc main_arg5)) := W2_arg5 m ρ c
  have f7 : V2 m ρ c main_arg7 = (m ((c : Thread nD τ).loc main_arg7)) := W2_arg7 m ρ c
  have f8 : V2 m ρ c main_arg8 = (m ((c : Thread nD τ).loc main_arg8)) := W2_arg8 m ρ c
  have f9 : V2 m ρ c main_arg9 = (m ((c : Thread nD τ).loc main_arg9)) := W2_arg9 m ρ c
  have f10 : V2 m ρ c main_arg10 = (m ((c : Thread nD τ).loc main_arg10)) := W2_arg10 m ρ c
  rw [W3_msg, arr0_msg (V2 m ρ) c, f0, f1, f2, f5, f7, f8, f9, f10]
  rfl

/-- The first region's weight array at its exit. -/
theorem W3_cw_eq (c : Dev nD) : W3 m ρ c (Proc.devRef .tc main_v2_1) = weights m c := by
  have f0 : V2 m ρ c main_v0 = hsrc m c := W2_v0 m ρ c
  have f1 : V2 m ρ c main_v1 = hdst m c := W2_v1 m ρ c
  have f2 : V2 m ρ c main_arg2 = (m ((c : Thread nD τ).loc main_arg2)) := W2_arg2 m ρ c
  have f5 : V2 m ρ c main_arg5 = (m ((c : Thread nD τ).loc main_arg5)) := W2_arg5 m ρ c
  have f7 : V2 m ρ c main_arg7 = (m ((c : Thread nD τ).loc main_arg7)) := W2_arg7 m ρ c
  have f8 : V2 m ρ c main_arg8 = (m ((c : Thread nD τ).loc main_arg8)) := W2_arg8 m ρ c
  have f9 : V2 m ρ c main_arg9 = (m ((c : Thread nD τ).loc main_arg9)) := W2_arg9 m ρ c
  have f10 : V2 m ρ c main_arg10 = (m ((c : Thread nD τ).loc main_arg10)) := W2_arg10 m ρ c
  have f11 : V2 m ρ c main_arg11 = (m ((c : Thread nD τ).loc main_arg11)) := W2_arg11 m ρ c
  have f12 : V2 m ρ c main_arg12 = (m ((c : Thread nD τ).loc main_arg12)) := W2_arg12 m ρ c
  have f13 : V2 m ρ c main_arg13 = (m ((c : Thread nD τ).loc main_arg13)) := W2_arg13 m ρ c
  rw [W3_cw, arr0_cw (V2 m ρ) c, f0, f1, f2, f5, f7, f8, f9, f10, f11, f12, f13]
  rfl

/-- The updated node features at the end of the run. -/
theorem out_node (c : Dev nD) : W5 m ρ c (Proc.devRef .tc main_v11) = nodeOut m c := by
  have e0 : V4 m ρ c main_arg0 = (m ((c : Thread nD τ).loc main_arg0)) := W4_arg0 m ρ c
  have e10 : V4 m ρ c main_v10 = msgSum m c := by
    refine (W4_v10 m ρ c).trans ?_
    rw [W3_msg_eq m ρ c]
    rfl
  have e6 : V4 m ρ c main_arg6 = (m ((c : Thread nD τ).loc main_arg6)) := W4_arg6 m ρ c
  have e14 : V4 m ρ c main_arg14 = (m ((c : Thread nD τ).loc main_arg14)) := W4_arg14 m ρ c
  have e15 : V4 m ρ c main_arg15 = (m ((c : Thread nD τ).loc main_arg15)) := W4_arg15 m ρ c
  have e16 : V4 m ρ c main_arg16 = (m ((c : Thread nD τ).loc main_arg16)) := W4_arg16 m ρ c
  have e17 : V4 m ρ c main_arg17 = (m ((c : Thread nD τ).loc main_arg17)) := W4_arg17 m ρ c
  rw [W5_v11, arr1_node (V4 m ρ) c, e0, e10, e6, e14, e15, e16, e17]
  rfl

/-- The coordinate updates at the end of the run. -/
theorem out_coord (c : Dev nD) : W5 m ρ c (Proc.devRef .tc main_v7) = coordOut m c := by
  rw [W5_v7, W4_v7, W3_cw_eq m ρ c]
  rfl

/-- The run, read: every weakly fair execution of the kernel's @main terminates, nothing faulting, with the two
    results at these functions of the launch contents and the arguments as launched. -/
theorem run : θ_run defs (onTc (τ := τ) (main (F := Ideal))) ⟨m, fun _ => 0, ρ⟩ (fun r => ∀ c : Dev nD,
      r.2.mem ((c.tc : Thread nD τ).loc main_v11) = nodeOut m c
      ∧ r.2.mem ((c.tc : Thread nD τ).loc main_v7) = coordOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c).1.trans (out_node m ρ c), (h c).2.1.trans (out_coord m ρ c), (h c).2.2⟩)
    (run_values (F := Ideal) m ρ)

end Cert.KernelIdeal.Val

end
-- ==== Proof.RefValue.lean ====
/-
  The reference, stage by stage, as the row functions of the layer.

  On the host the message of all 640000 edges is computed at once: the joined [640000 × 385] matrix times the
  first weight matrix plus its bias row, the activation spelt x · (1 / (1 + e^(−x))), a second such layer; the
  coordinate weight is a third activated layer times a [128 × 1] column; the node update is a activated layer and an
  affine layer of the joined [50000 × 384] matrix, added to the node features. A host matrix product at (r, j)
  is ∑ₖ l[r, k] · w[k, j], so row r of each stage is the row function of row r of its operands: the stages are
  `Gmsg`, `Gcw`, `Gnode` at 640000 resp. 50000 rows.
-/
import proofs.«423871_j23063974379744_1_alg».proof.Proof.Gen.ReferenceIdeal.Read
import proofs.«423871_j23063974379744_1_alg».proof.Proof.RowOps

noncomputable section

namespace Cert.ReferenceIdeal.RefVal

open Idealize.ShloMosaic Idealize.ShloMosaic.ValueIdx Idealize.SL.Sem
open Cert.ReferenceIdeal Cert.ReferenceIdeal.Gen Cert.ReferenceIdeal.Read

/-! ## Where the host's products and bias rows read their operands

At (r, j) a product reads its left operand at (r, k) and its right at (k, j); a bias vector made a [1 × 128] row
and repeated over the rows is read at j. -/

private theorem lidx15 (r : Fin 640000) (j : Fin 128) (k : Fin 385) : lidx_main_v15 (ix2 r j) k = ix2 r k := by
  funext a; match a with | ⟨0, _⟩ => rfl | ⟨1, _⟩ => rfl
private theorem ridx15 (r : Fin 640000) (j : Fin 128) (k : Fin 385) : ridx_main_v15 (ix2 r j) k = ix2 k j := by
  funext a; match a with | ⟨0, _⟩ => rfl | ⟨1, _⟩ => rfl

private theorem lidx20 (r : Fin 640000) (j : Fin 128) (k : Fin 128) : lidx_main_v20 (ix2 r j) k = ix2 r k := by
  funext a; match a with | ⟨0, _⟩ => rfl | ⟨1, _⟩ => rfl
private theorem ridx20 (r : Fin 640000) (j : Fin 128) (k : Fin 128) : ridx_main_v20 (ix2 r j) k = ix2 k j := by
  funext a; match a with | ⟨0, _⟩ => rfl | ⟨1, _⟩ => rfl

private theorem lidx25 (r : Fin 640000) (j : Fin 128) (k : Fin 128) : lidx_main_v25 (ix2 r j) k = ix2 r k := by
  funext a; match a with | ⟨0, _⟩ => rfl | ⟨1, _⟩ => rfl
private theorem ridx25 (r : Fin 640000) (j : Fin 128) (k : Fin 128) : ridx_main_v25 (ix2 r j) k = ix2 k j := by
  funext a; match a with | ⟨0, _⟩ => rfl | ⟨1, _⟩ => rfl

private theorem lidx30 (r : Fin 640000) (j : Fin 1) (k : Fin 128) : lidx_main_v30 (ix2 r j) k = ix2 r k := by
  funext a; match a with | ⟨0, _⟩ => rfl | ⟨1, _⟩ => rfl
private theorem ridx30 (r : Fin 640000) (j : Fin 1) (k : Fin 128) : ridx_main_v30 (ix2 r j) k = ix2 k j := by
  funext a; match a with | ⟨0, _⟩ => rfl | ⟨1, _⟩ => rfl

private theorem lidx50 (r : Fin 50000) (j : Fin 128) (k : Fin 384) : lidx_main_v50 (ix2 r j) k = ix2 r k := by
  funext a; match a with | ⟨0, _⟩ => rfl | ⟨1, _⟩ => rfl
private theorem ridx50 (r : Fin 50000) (j : Fin 128) (k : Fin 384) : ridx_main_v50 (ix2 r j) k = ix2 k j := by
  funext a; match a with | ⟨0, _⟩ => rfl | ⟨1, _⟩ => rfl

private theorem lidx55 (r : Fin 50000) (j : Fin 128) (k : Fin 128) : lidx_main_v55 (ix2 r j) k = ix2 r k := by
  funext a; match a with | ⟨0, _⟩ => rfl | ⟨1, _⟩ => rfl
private theorem ridx55 (r : Fin 50000) (j : Fin 128) (k : Fin 128) : ridx_main_v55 (ix2 r j) k = ix2 k j := by
  funext a; match a with | ⟨0, _⟩ => rfl | ⟨1, _⟩ => rfl

private theorem bidx17 (r : Fin 640000) (j : Fin 128) : idx_main_v16 (idx_main_v17 (ix2 r j)) = ix1 j := by
  funext a; match a with | ⟨0, _⟩ => rfl

private theorem bidx22 (r : Fin 640000) (j : Fin 128) : idx_main_v21 (idx_main_v22 (ix2 r j)) = ix1 j := by
  funext a; match a with | ⟨0, _⟩ => rfl

private theorem bidx27 (r : Fin 640000) (j : Fin 128) : idx_main_v26 (idx_main_v27 (ix2 r j)) = ix1 j := by
  funext a; match a with | ⟨0, _⟩ => rfl

private theorem bidx52 (r : Fin 50000) (j : Fin 128) : idx_main_v51 (idx_main_v52 (ix2 r j)) = ix1 j := by
  funext a; match a with | ⟨0, _⟩ => rfl

private theorem bidx57 (r : Fin 50000) (j : Fin 128) : idx_main_v56 (idx_main_v57 (ix2 r j)) = ix1 j := by
  funext a; match a with | ⟨0, _⟩ => rfl

/-! ## The activation

Each call of the host's activation computes x · (1 / (1 + e^(−x))) with the constant one broadcast to the operand's
shape; entry by entry that is `silu`. -/

/-- Stage 19 is the activation of stage 18, entry by entry. -/
private theorem act19 (x0 : (⟨S50000x128, .f32⟩ : BufTy).Contents (Elt Ideal)) (x2 : (⟨S640000x1, .f32⟩ : BufTy).Contents (Elt Ideal)) (x3 : (⟨S640000, .i32⟩ : BufTy).Contents (Elt Ideal)) (x4 : (⟨S640000, .i32⟩ : BufTy).Contents (Elt Ideal)) (x5 : (⟨S640000x128, .f32⟩ : BufTy).Contents (Elt Ideal)) (x7 : (⟨S385x128, .f32⟩ : BufTy).Contents (Elt Ideal)) (x8 : (⟨S128, .f32⟩ : BufTy).Contents (Elt Ideal)) (i : S640000x128.Idx) :
    val_main_v19 (F := Ideal) x0 x2 x3 x4 x5 x7 x8 i = Cert.Spec.silu (val_main_v18 (F := Ideal) x0 x2 x3 x4 x5 x7 x8 i) := by
  rw [val_main_v19_apply, val_main_call0_v5_apply, val_main_call0_v4_apply, val_main_call0_cst_0_apply,
    val_main_call0_v3_apply, val_main_call0_v2_apply, val_main_call0_cst_apply, val_main_call0_v1_apply,
    val_main_call0_v0_apply]
  exact Cert.Spec.silu_host _

/-- Stage 24 is the activation of stage 23, entry by entry. -/
private theorem act24 (x0 : (⟨S50000x128, .f32⟩ : BufTy).Contents (Elt Ideal)) (x2 : (⟨S640000x1, .f32⟩ : BufTy).Contents (Elt Ideal)) (x3 : (⟨S640000, .i32⟩ : BufTy).Contents (Elt Ideal)) (x4 : (⟨S640000, .i32⟩ : BufTy).Contents (Elt Ideal)) (x5 : (⟨S640000x128, .f32⟩ : BufTy).Contents (Elt Ideal)) (x7 : (⟨S385x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (i : S640000x128.Idx) :
    val_main_v24 (F := Ideal) x0 x2 x3 x4 x5 x7 x8 x9 x10 i = Cert.Spec.silu (val_main_v23 (F := Ideal) x0 x2 x3 x4 x5 x7 x8 x9 x10 i) := by
  rw [val_main_v24_apply, val_main_call1_v5_apply, val_main_call1_v4_apply, val_main_call1_cst_0_apply,
    val_main_call1_v3_apply, val_main_call1_v2_apply, val_main_call1_cst_apply, val_main_call1_v1_apply,
    val_main_call1_v0_apply]
  exact Cert.Spec.silu_host _

/-- Stage 29 is the activation of stage 28, entry by entry. -/
private theorem act29 (x0 : (⟨S50000x128, .f32⟩ : BufTy).Contents (Elt Ideal)) (x2 : (⟨S640000x1, .f32⟩ : BufTy).Contents (Elt Ideal)) (x3 : (⟨S640000, .i32⟩ : BufTy).Contents (Elt Ideal)) (x4 : (⟨S640000, .i32⟩ : BufTy).Contents (Elt Ideal)) (x5 : (⟨S640000x128, .f32⟩ : BufTy).Contents (Elt Ideal)) (x7 : (⟨S385x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (i : S640000x128.Idx) :
    val_main_v29 (F := Ideal) x0 x2 x3 x4 x5 x7 x8 x9 x10 x11 x12 i = Cert.Spec.silu (val_main_v28 (F := Ideal) x0 x2 x3 x4 x5 x7 x8 x9 x10 x11 x12 i) := by
  rw [val_main_v29_apply, val_main_call2_v5_apply, val_main_call2_v4_apply, val_main_call2_cst_0_apply,
    val_main_call2_v3_apply, val_main_call2_v2_apply, val_main_call2_cst_apply, val_main_call2_v1_apply,
    val_main_call2_v0_apply]
  exact Cert.Spec.silu_host _

/-- Stage 54 is the activation of stage 53, entry by entry. -/
private theorem act54 (x0 : (⟨S50000x128, .f32⟩ : BufTy).Contents (Elt Ideal)) (x2 : (⟨S640000x1, .f32⟩ : BufTy).Contents (Elt Ideal)) (x3 : (⟨S640000, .i32⟩ : BufTy).Contents (Elt Ideal)) (x4 : (⟨S640000, .i32⟩ : BufTy).Contents (Elt Ideal)) (x5 : (⟨S640000x128, .f32⟩ : BufTy).Contents (Elt Ideal)) (x6 : (⟨S50000x128, .f32⟩ : BufTy).Contents (Elt Ideal)) (x7 : (⟨S385x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x14 : (⟨S384x128, .f32⟩ : BufTy).Contents (Elt Ideal)) (x15 : (⟨S128, .f32⟩ : BufTy).Contents (Elt Ideal)) (i : S50000x128.Idx) :
    val_main_v54 (F := Ideal) x0 x2 x3 x4 x5 x6 x7 x8 x9 x10 x14 x15 i = Cert.Spec.silu (val_main_v53 (F := Ideal) x0 x2 x3 x4 x5 x6 x7 x8 x9 x10 x14 x15 i) := by
  rw [val_main_v54_apply, val_main_call4_v5_apply, val_main_call4_v4_apply, val_main_call4_cst_0_apply,
    val_main_call4_v3_apply, val_main_call4_v2_apply, val_main_call4_cst_apply, val_main_call4_v1_apply,
    val_main_call4_v0_apply]
  exact Cert.Spec.silu_host _

/-! ## One affine layer at an entry -/

/-- Stage 18 at (r, j): the affine layer of row r of stage 14. -/
private theorem aff18 (x0 : (⟨S50000x128, .f32⟩ : BufTy).Contents (Elt Ideal)) (x2 : (⟨S640000x1, .f32⟩ : BufTy).Contents (Elt Ideal)) (x3 : (⟨S640000, .i32⟩ : BufTy).Contents (Elt Ideal)) (x4 : (⟨S640000, .i32⟩ : BufTy).Contents (Elt Ideal)) (x5 : (⟨S640000x128, .f32⟩ : BufTy).Contents (Elt Ideal)) (x7 : (⟨S385x128, .f32⟩ : BufTy).Contents (Elt Ideal)) (x8 : (⟨S128, .f32⟩ : BufTy).Contents (Elt Ideal)) (r : Fin 640000) (j : Fin 128) :
    val_main_v18 (F := Ideal) x0 x2 x3 x4 x5 x7 x8 (ix2 r j)
      = Cert.Spec.lin (fun k => val_main_v14 (F := Ideal) x0 x2 x3 x4 x5 (ix2 r k)) x7 x8 j := by
  rw [val_main_v18_apply, val_main_v15_apply, val_main_v17_apply, val_main_v16_apply, bidx17]
  unfold Cert.Spec.lin
  refine congrArg (fun a => a + x8 (ix1 j)) (Finset.sum_congr rfl fun k _ => ?_)
  rw [lidx15, ridx15]

/-- Stage 23 at (r, j): the affine layer of row r of stage 19. -/
private theorem aff23 (x0 : (⟨S50000x128, .f32⟩ : BufTy).Contents (Elt Ideal)) (x2 : (⟨S640000x1, .f32⟩ : BufTy).Contents (Elt Ideal)) (x3 : (⟨S640000, .i32⟩ : BufTy).Contents (Elt Ideal)) (x4 : (⟨S640000, .i32⟩ : BufTy).Contents (Elt Ideal)) (x5 : (⟨S640000x128, .f32⟩ : BufTy).Contents (Elt Ideal)) (x7 : (⟨S385x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (r : Fin 640000) (j : Fin 128) :
    val_main_v23 (F := Ideal) x0 x2 x3 x4 x5 x7 x8 x9 x10 (ix2 r j)
      = Cert.Spec.lin (fun k => val_main_v19 (F := Ideal) x0 x2 x3 x4 x5 x7 x8 (ix2 r k)) x9 x10 j := by
  rw [val_main_v23_apply, val_main_v20_apply, val_main_v22_apply, val_main_v21_apply, bidx22]
  unfold Cert.Spec.lin
  refine congrArg (fun a => a + x10 (ix1 j)) (Finset.sum_congr rfl fun k _ => ?_)
  rw [lidx20, ridx20]

/-- Stage 28 at (r, j): the affine layer of row r of stage 24. -/
private theorem aff28 (x0 : (⟨S50000x128, .f32⟩ : BufTy).Contents (Elt Ideal)) (x2 : (⟨S640000x1, .f32⟩ : BufTy).Contents (Elt Ideal)) (x3 : (⟨S640000, .i32⟩ : BufTy).Contents (Elt Ideal)) (x4 : (⟨S640000, .i32⟩ : BufTy).Contents (Elt Ideal)) (x5 : (⟨S640000x128, .f32⟩ : BufTy).Contents (Elt Ideal)) (x7 : (⟨S385x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (r : Fin 640000) (j : Fin 128) :
    val_main_v28 (F := Ideal) x0 x2 x3 x4 x5 x7 x8 x9 x10 x11 x12 (ix2 r j)
      = Cert.Spec.lin (fun k => val_main_v24 (F := Ideal) x0 x2 x3 x4 x5 x7 x8 x9 x10 (ix2 r k)) x11 x12 j := by
  rw [val_main_v28_apply, val_main_v25_apply, val_main_v27_apply, val_main_v26_apply, bidx27]
  unfold Cert.Spec.lin
  refine congrArg (fun a => a + x12 (ix1 j)) (Finset.sum_congr rfl fun k _ => ?_)
  rw [lidx25, ridx25]

/-- Stage 53 at (r, j): the affine layer of row r of stage 39. -/
private theorem aff53 (x0 : (⟨S50000x128, .f32⟩ : BufTy).Contents (Elt Ideal)) (x2 : (⟨S640000x1, .f32⟩ : BufTy).Contents (Elt Ideal)) (x3 : (⟨S640000, .i32⟩ : BufTy).Contents (Elt Ideal)) (x4 : (⟨S640000, .i32⟩ : BufTy).Contents (Elt Ideal)) (x5 : (⟨S640000x128, .f32⟩ : BufTy).Contents (Elt Ideal)) (x6 : (⟨S50000x128, .f32⟩ : BufTy).Contents (Elt Ideal)) (x7 : (⟨S385x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x14 : (⟨S384x128, .f32⟩ : BufTy).Contents (Elt Ideal)) (x15 : (⟨S128, .f32⟩ : BufTy).Contents (Elt Ideal)) (r : Fin 50000) (j : Fin 128) :
    val_main_v53 (F := Ideal) x0 x2 x3 x4 x5 x6 x7 x8 x9 x10 x14 x15 (ix2 r j)
      = Cert.Spec.lin (fun k => val_main_v39 (F := Ideal) x0 x2 x3 x4 x5 x6 x7 x8 x9 x10 (ix2 r k)) x14 x15 j := by
  rw [val_main_v53_apply, val_main_v50_apply, val_main_v52_apply, val_main_v51_apply, bidx52]
  unfold Cert.Spec.lin
  refine congrArg (fun a => a + x15 (ix1 j)) (Finset.sum_congr rfl fun k _ => ?_)
  rw [lidx50, ridx50]

/-- Stage 58 at (r, j): the affine layer of row r of stage 54. -/
private theorem aff58 (x0 : (⟨S50000x128, .f32⟩ : BufTy).Contents (Elt Ideal)) (x2 : (⟨S640000x1, .f32⟩ : BufTy).Contents (Elt Ideal)) (x3 : (⟨S640000, .i32⟩ : BufTy).Contents (Elt Ideal)) (x4 : (⟨S640000, .i32⟩ : BufTy).Contents (Elt Ideal)) (x5 : (⟨S640000x128, .f32⟩ : BufTy).Contents (Elt Ideal)) (x6 : (⟨S50000x128, .f32⟩ : BufTy).Contents (Elt Ideal)) (x7 : (⟨S385x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x14 : (⟨S384x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (r : Fin 50000) (j : Fin 128) :
    val_main_v58 (F := Ideal) x0 x2 x3 x4 x5 x6 x7 x8 x9 x10 x14 x15 x16 x17 (ix2 r j)
      = Cert.Spec.lin (fun k => val_main_v54 (F := Ideal) x0 x2 x3 x4 x5 x6 x7 x8 x9 x10 x14 x15 (ix2 r k)) x16 x17 j := by
  rw [val_main_v58_apply, val_main_v55_apply, val_main_v57_apply, val_main_v56_apply, bidx57]
  unfold Cert.Spec.lin
  refine congrArg (fun a => a + x17 (ix1 j)) (Finset.sum_congr rfl fun k _ => ?_)
  rw [lidx55, ridx55]

/-! ## The stages -/

/-- The messages: the second activated layer's result, from the two gathered feature arrays. -/
theorem ref_msg (x0 : (⟨S50000x128, .f32⟩ : BufTy).Contents (Elt Ideal)) (x2 : (⟨S640000x1, .f32⟩ : BufTy).Contents (Elt Ideal)) (x3 x4 : (⟨S640000, .i32⟩ : BufTy).Contents (Elt Ideal)) (x5 : (⟨S640000x128, .f32⟩ : BufTy).Contents (Elt Ideal))
    (x7 : (⟨S385x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v24 (F := Ideal) x0 x2 x3 x4 x5 x7 x8 x9 x10
      = Cert.Spec.Gmsg 640000 (val_main_v6 (F := Ideal) x0 x3) (val_main_v13 (F := Ideal) x0 x4) x2 x5 x7 x8 x9 x10 := by
  funext i
  obtain ⟨r, j, rfl⟩ : ∃ (r : Fin 640000) (j : Fin 128), i = ix2 r j := ⟨i 0, i 1, eq_ix2 i⟩
  -- the second activated layer reads row r of the first, which reads row r of the joined matrix
  rw [act24, aff23]
  refine congrArg Cert.Spec.silu (congrArg (fun a => Cert.Spec.lin a x9 x10 j) (funext fun k => ?_))
  rw [act19, aff18]
  refine congrArg Cert.Spec.silu (congrArg (fun a => Cert.Spec.lin a x7 x8 k) (funext fun k' => ?_))
  unfold val_main_v14
  exact Cert.Spec.cat4_apply (R := 640000) _ _ _ _ _ r k'

/-- The coordinate weights. -/
theorem ref_cw (x0 : (⟨S50000x128, .f32⟩ : BufTy).Contents (Elt Ideal)) (x2 : (⟨S640000x1, .f32⟩ : BufTy).Contents (Elt Ideal)) (x3 x4 : (⟨S640000, .i32⟩ : BufTy).Contents (Elt Ideal)) (x5 : (⟨S640000x128, .f32⟩ : BufTy).Contents (Elt Ideal))
    (x7 : (⟨S385x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))
    (x11 : (⟨S128x128, .f32⟩ : BufTy).Contents (Elt Ideal)) (x12 : (⟨S128, .f32⟩ : BufTy).Contents (Elt Ideal)) (x13 : (⟨S128x1, .f32⟩ : BufTy).Contents (Elt Ideal)) :
    val_main_v30 (F := Ideal) x0 x2 x3 x4 x5 x7 x8 x9 x10 x11 x12 x13
      = Cert.Spec.Gcw 640000 (val_main_v6 (F := Ideal) x0 x3) (val_main_v13 (F := Ideal) x0 x4) x2 x5 x7 x8 x9 x10 x11 x12 x13 := by
  funext i
  obtain ⟨r, q, rfl⟩ : ∃ (r : Fin 640000) (q : Fin 1), i = ix2 r q := ⟨i 0, i 1, eq_ix2 i⟩
  obtain rfl : q = 0 := Subsingleton.elim _ _
  -- the product with the one column is a sum over the activated third layer of the message row
  rw [val_main_v30_apply]
  show (∑ k : Fin 128, (_ : EReal)) = ∑ k : Fin 128, Cert.Spec.silu (Cert.Spec.lin _ x11 x12 k) * x13 (ix2 k 0)
  refine Finset.sum_congr rfl fun k _ => ?_
  rw [lidx30, ridx30, act29, aff28, ref_msg]
  rfl

/-- The updated node features, from the summed messages. -/
theorem ref_node (x0 : (⟨S50000x128, .f32⟩ : BufTy).Contents (Elt Ideal)) (x2 : (⟨S640000x1, .f32⟩ : BufTy).Contents (Elt Ideal)) (x3 x4 : (⟨S640000, .i32⟩ : BufTy).Contents (Elt Ideal)) (x5 : (⟨S640000x128, .f32⟩ : BufTy).Contents (Elt Ideal))
    (x6 : (⟨S50000x128, .f32⟩ : BufTy).Contents (Elt Ideal)) (x7 : (⟨S385x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))
    (x14 : (⟨S384x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) :
    val_main_v59 (F := Ideal) x0 x2 x3 x4 x5 x6 x7 x8 x9 x10 x14 x15 x16 x17
      = Cert.Spec.Gnode 50000 x0 (val_main_v38 (F := Ideal) x0 x2 x3 x4 x5 x7 x8 x9 x10) x6 x14 x15 x16 x17 := by
  funext i
  obtain ⟨r, j, rfl⟩ : ∃ (r : Fin 50000) (j : Fin 128), i = ix2 r j := ⟨i 0, i 1, eq_ix2 i⟩
  -- the node's own entry plus the affine layer of the activated layer of the joined row
  rw [val_main_v59_apply, aff58]
  refine congrArg (fun a => x0 (ix2 r j) + a) ?_
  refine congrArg (fun a => Cert.Spec.lin a x16 x17 j) (funext fun k => ?_)
  rw [act54, aff53]
  refine congrArg Cert.Spec.silu (congrArg (fun a => Cert.Spec.lin a x14 x15 k) (funext fun k' => ?_))
  unfold val_main_v39
  exact Cert.Spec.cat3_apply (R := 50000) _ _ _ _ r k'

end Cert.ReferenceIdeal.RefVal

end
-- ==== Proof.IndexRange.lean ====
/-
  When an index vector addresses the 50000 node rows: every entry, read as a signed word, is at least 0
  and below 50000.
-/
import Idealize.ShloMosaic.PureOps

noncomputable section

namespace Cert.Spec

open Idealize.ShloMosaic

/-- Every one of the 640000 edge endpoints is a node: 0 ≤ idx[e] < 50000, as signed words. -/
def InRange (idx : IVec (⟨1, ![640000]⟩ : Shape) 32) : Prop :=
  ∀ e, IntOp.cmpi .sge (idx e) 0#32 = 1#1 ∧ IntOp.cmpi .slt (idx e) 50000#32 = 1#1

end Cert.Spec

end
-- ==== Proof.Take.lean ====
/-
  With every index in 0 … 49999 the kernel's row gather never fills a row.

  No index is below zero, so none is moved and every moved index is in range; the row mask is all ones, and the
  select keeps the gathered row everywhere.
-/
import proofs.«423871_j23063974379744_1_alg».proof.Proof.TakeDef
import proofs.«423871_j23063974379744_1_alg».proof.Proof.IndexRange
import Idealize.ShloMosaic.Lib.Pipeline.Value
import Idealize.ShloMosaic.Lib.ValueIdx
import Idealize.ShloMosaic.Lib.ReduceAll
import Idealize.ShloMosaic.Lib.StableHlo.Predicate

noncomputable section

namespace Cert.KernelIdeal.Val

open Idealize.ShloMosaic Idealize.ShloMosaic.ValueIdx Idealize.SL.Sem
open Cert.KernelIdeal Cert.KernelIdeal.Gen

variable {F : FTy → Type} [FloatOps F]

/-- A left fold by `and` from 1 over words that are all 1 is 1. -/
private theorem foldl_andi_one {ι : Type} (f : ι → BitVec 1) (hf : ∀ n, f n = 1#1) :
    ∀ l : List ι, l.foldl (fun r n => IntOp.andi r (f n)) 1#1 = 1#1
  | [] => rfl
  | a :: l => by
    have e : IntOp.andi 1#1 1#1 = 1#1 := by decide
    rw [List.foldl_cons, hf a, e]
    exact foldl_andi_one f hf l

/-- A word that is at least 0 is not below 0: it is not moved. -/
private theorem start_eq (x : BitVec 32) (h0 : IntOp.cmpi .sge x 0#32 = 1#1) :
    Scalar.select (IntOp.cmpi .slt x 0#32) (IntOp.addi x 50000#32) x = x := by
  have h : ¬IntOp.cmpi .slt x 0#32 = 1#1 := by
    intro hc
    have a := IntOp.cmpi_sge.1 h0
    have b := IntOp.cmpi_slt.1 hc
    omega
  rw [eq_zero_of_ne_one h]
  exact select_zero _ _

/-- A word in 0 … 49999 passes both tests of the row mask. -/
private theorem ok_elem (x : BitVec 32) (h0 : IntOp.cmpi .sge x 0#32 = 1#1) (h1 : IntOp.cmpi .slt x 50000#32 = 1#1) :
    IntOp.andi (IntOp.cmpi .sge x 0#32) (IntOp.cmpi .sle x 49999#32) = 1#1 := by
  refine IntOp.andi_eq_one.2 ⟨h0, IntOp.cmpi_sle.2 ?_⟩
  have b := IntOp.cmpi_slt.1 h1
  have e1 : (50000#32 : BitVec 32).toInt = 50000 := by decide
  have e2 : (49999#32 : BitVec 32).toInt = 49999 := by decide
  omega

/-- With the indices in range every start index is an entry of the index vector, unmoved. -/
private theorem takeStart_eq (idx : IVec S640000 32) (hr : Cert.Spec.InRange idx) (i' : S640000x1.Idx) :
    ∃ e, takeStart idx i' = idx e :=
  ⟨_, start_eq (idx _) (hr _).1⟩

/-- With the indices in range the row mask is 1 at every row. -/
private theorem takeOk_one (idx : IVec S640000 32) (hr : Cert.Spec.InRange idx) (e : S640000.Idx) : takeOk idx e = 1#1 := by
  unfold takeOk
  rw [Host.reduce_eq_foldl]
  refine foldl_andi_one _ (fun i' => ?_) _
  show IntOp.andi (IntOp.cmpi .sge (takeStart idx i') 0#32) (IntOp.cmpi .sle (takeStart idx i') 49999#32) = 1#1
  obtain ⟨e', he⟩ := takeStart_eq idx hr i'
  rw [he]
  exact ok_elem _ (hr e').1 (hr e').2

/-- With the indices in range the gathered rows are the plain gather at the (unmoved) start indices. -/
theorem takeK_of_inRange (h : FVec F S50000x128 .f32) (idx : IVec S640000 32) (hr : Cert.Spec.InRange idx) :
    takeK h idx = Host.gather gather_S50000x128_S640000x1_S640000x128_1_0_n_n_0_1_1128 h (takeStart idx) := by
  -- the mask is 1 at every index, so the select keeps the gathered row
  funext i
  unfold takeK
  rw [select_apply]
  have hm : broadcastInDim S640000x128 ![0] bcast_S640000_S640000x128_0 (takeOk idx) i = 1#1 := takeOk_one idx hr _
  rw [hm]
  exact select_one _ _

end Cert.KernelIdeal.Val

end
-- ==== Proof.PreDecode.lean ====
/-
  What the precondition says about the two index inputs.

  The precondition is a conjunction, its last four conjuncts being "every source index ≥ 0", "every source
  index < 50000" and the same two for the destination indices, each an and-reduction of a compare against a
  broadcast constant.
-/
import proofs.«423871_j23063974379744_1_alg».proof.Defs
import proofs.«423871_j23063974379744_1_alg».proof.Proof.Gen.Pre_finite_inputs
import proofs.«423871_j23063974379744_1_alg».proof.Proof.IndexRange
import Idealize.ShloMosaic.Lib.ReduceAll
import Idealize.ShloMosaic.Lib.ValueIdx
import Idealize.ShloMosaic.Lib.Pipeline.Value
import Idealize.ShloMosaic.Lib.StableHlo.Predicate

noncomputable section

namespace Cert.KernelIdeal.Val

open Idealize.ShloMosaic Idealize.ShloMosaic.TcCoe Idealize.ShloMosaic.ValueIdx Idealize.SL.Sem

/-- The scalar shape has one index. -/
private instance subsingleton_scalar_idx : Subsingleton Cert.Pre_finite_inputs.S_.Idx :=
  ⟨fun a b => funext fun d => d.elim0⟩

/-- The last part of the conjunction: when it is 1, the conjunction so far is 1, the mask handed in is all ones,
    and every destination index is ≥ 0 and < 50000. -/
private theorem part5_eq_one {F : FTy → Type} [FloatOps F] [Cert.Pre_finite_inputs.Facts]
    (a4 : IVec Cert.Pre_finite_inputs.S640000 32) (v82 : IVec Cert.Pre_finite_inputs.S_ 1)
    (v84 : IVec Cert.Pre_finite_inputs.S640000 1)
    (h : Cert.Pre_finite_inputs.fn_part5 (F := F) a4 v82 v84 ix0 = 1#1) :
    v82 ix0 = 1#1 ∧ (∀ e, v84 e = 1#1) ∧ (∀ e, IntOp.cmpi .sge (a4 e) 0#32 = 1#1)
      ∧ (∀ e, IntOp.cmpi .slt (a4 e) 50000#32 = 1#1) := by
  unfold Cert.Pre_finite_inputs.fn_part5 at h
  obtain ⟨h90, h93⟩ := IntOp.andi_eq_one.1 h
  obtain ⟨h86, h89⟩ := IntOp.andi_eq_one.1 h90
  obtain ⟨h82, h85⟩ := IntOp.andi_eq_one.1 h86
  exact ⟨h82, fun e => Host.reduce_andi_all _ _ _ _ ix0 h85 e,
    fun e => Host.reduce_andi_all _ _ _ _ ix0 h89 e, fun e => Host.reduce_andi_all _ _ _ _ ix0 h93 e⟩

/-- The fourth part: when it is 1, both index vectors are in range. -/
private theorem part4_eq_one {F : FTy → Type} [FloatOps F] [Cert.Pre_finite_inputs.Facts]
    (a3 a4 : IVec Cert.Pre_finite_inputs.S640000 32)
    (a16 : FVec F Cert.Pre_finite_inputs.S128x128 .f32) (a17 : FVec F Cert.Pre_finite_inputs.S128 .f32)
    (v63 v67 : IVec Cert.Pre_finite_inputs.S_ 1)
    (h : Cert.Pre_finite_inputs.fn_part4 (F := F) a3 a4 a16 a17 v63 v67 ix0 = 1#1) :
    Cert.Spec.InRange a3 ∧ Cert.Spec.InRange a4 := by
  unfold Cert.Pre_finite_inputs.fn_part4 at h
  obtain ⟨h82, h84, h4ge, h4lt⟩ := part5_eq_one _ _ _ h
  obtain ⟨-, h81⟩ := IntOp.andi_eq_one.1 h82
  have h3ge : ∀ e, IntOp.cmpi .sge (a3 e) 0#32 = 1#1 := fun e => Host.reduce_andi_all _ _ _ _ ix0 h81 e
  exact ⟨fun e => ⟨h3ge e, h84 e⟩, fun e => ⟨h4ge e, h4lt e⟩⟩

/-- Under the precondition both index inputs address the node rows. -/
theorem inRange_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Spec.InRange (m ((c.tc : Thread Cert.KernelIdeal.nD Cert.KernelIdeal.τ).loc Cert.KernelIdeal.main_arg3))
      ∧ Cert.Spec.InRange (m ((c.tc : Thread Cert.KernelIdeal.nD Cert.KernelIdeal.τ).loc Cert.KernelIdeal.main_arg4)) := by
  have h := congrFun (hpre c) ix0
  unfold Cert.Pre_finite_inputs.fn Cert.Pre_finite_inputs.fn_part1 Cert.Pre_finite_inputs.fn_part2
    Cert.Pre_finite_inputs.fn_part3 at h
  exact part4_eq_one _ _ _ _ _ _ h

end Cert.KernelIdeal.Val

end
-- ==== Proof.lean ====
/-
  The kernel computes an EGNN message-passing layer — gather the node features at each edge's endpoints, an
  edge network (two activated affine layers) for the messages and a coordinate network for one weight per edge on
  row tiles of 3200 edges, scatter-add the weighted coordinate differences by source node and the messages by
  destination node, then a node network with a residual on row tiles of 2000 nodes — and the reference computes
  the same layer with whole-array operations. Over the extended reals the two agree whenever every edge endpoint
  is a node index (0 ≤ index < 50000), which the precondition states beside the finiteness of the float inputs:

  * both programs run to the end and leave their arguments as they found them (the three frame claims: the
    generated launch of the kernel's two regions among its host stretches, and the reference's generated run);
  * the idealization rewrote nothing, so there is nothing to preserve;
  * the results agree. Every stage reads ONE row of its row-indexed operands: the message of edge e is a
    function of rows e of the gathered features, of the squared distance and of the edge time embedding; the
    node update of node n a function of rows n of the features, the summed messages and the node time
    embedding. So a tile's rows and the whole array's rows give the same values, and a matrix product into a
    zero accumulator, or the host's product, at (r, j) is ∑ₖ l[r, k] · w[k, j] either way; changes of float
    format are the identity; x · logistic x and x · (1 / (1 + e^(−x))) are one function. The kernel's gather
    fills a row whose index is out of range with a constant where the reference's gather clamps the index:
    with every index in range no row is filled, and the two gathers are one. The scatter-adds are the same
    operation on both sides, applied to equal updates at equal indices.
-/
import proofs.«423871_j23063974379744_1_alg».proof.Defs
import proofs.«423871_j23063974379744_1_alg».proof.Proof.Gen.Kernel
import proofs.«423871_j23063974379744_1_alg».proof.Proof.Gen.Kernel.Skeleton
import proofs.«423871_j23063974379744_1_alg».proof.Proof.Gen.Kernel.Launch
import proofs.«423871_j23063974379744_1_alg».proof.Proof.Gen.Kernel.Points
import proofs.«423871_j23063974379744_1_alg».proof.Proof.Gen.Kernel.Frame
import proofs.«423871_j23063974379744_1_alg».proof.Proof.Gen.KernelIdeal
import proofs.«423871_j23063974379744_1_alg».proof.Proof.Gen.KernelIdeal.Skeleton
import proofs.«423871_j23063974379744_1_alg».proof.Proof.Gen.KernelIdeal.Launch
import proofs.«423871_j23063974379744_1_alg».proof.Proof.Gen.KernelIdeal.Points
import proofs.«423871_j23063974379744_1_alg».proof.Proof.Gen.KernelIdeal.Frame
import proofs.«423871_j23063974379744_1_alg».proof.Proof.Gen.ReferenceIdeal
import proofs.«423871_j23063974379744_1_alg».proof.Proof.Gen.ReferenceIdeal.Run
import proofs.«423871_j23063974379744_1_alg».proof.Proof.Gen.ReferenceIdeal.Read
import proofs.«423871_j23063974379744_1_alg».proof.Proof.Gen.Pre_finite_inputs
import proofs.«423871_j23063974379744_1_alg».proof.Proof.KernelValue
import proofs.«423871_j23063974379744_1_alg».proof.Proof.RefValue
import proofs.«423871_j23063974379744_1_alg».proof.Proof.Take
import proofs.«423871_j23063974379744_1_alg».proof.Proof.PreDecode
import Idealize.ShloMosaic.Adequacy
import Idealize.ShloMosaic.Init

noncomputable section

open Idealize.ShloMosaic Idealize.ShloMosaic.TcCoe Idealize.SL.Sem

/-! ## The reference's gather and scatter-add terms are the kernel's -/

namespace Cert.Proof.Bridge

open Cert.KernelIdeal.Val Cert.ReferenceIdeal.Read

/-- With the indices in range, the kernel's rows gathered by an index vector are the reference's first gather. -/
theorem take_v6 (x0 : FVec Ideal Cert.KernelIdeal.S50000x128 .f32) (x3 : IVec Cert.KernelIdeal.S640000 32)
    (h3 : Cert.Spec.InRange x3) : takeK (F := Ideal) x0 x3 = val_main_v6 (F := Ideal) x0 x3 :=
  (takeK_of_inRange x0 x3 h3).trans rfl

/-- … and its second gather. -/
theorem take_v13 (x0 : FVec Ideal Cert.KernelIdeal.S50000x128 .f32) (x4 : IVec Cert.KernelIdeal.S640000 32)
    (h4 : Cert.Spec.InRange x4) : takeK (F := Ideal) x0 x4 = val_main_v13 (F := Ideal) x0 x4 :=
  (takeK_of_inRange x0 x4 h4).trans rfl

end Cert.Proof.Bridge

/-! ## The claims -/

namespace Cert.Proof

open Cert.KernelIdeal.Val

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The idealization recorded no rewrite. -/
theorem preserves : Cert.preserves_Kernel_KernelIdeal := trivial

/-- Both programs end with the updated node features at `nodeOut` and the coordinate updates at `coordOut` of
    the kernel's launch contents. -/
theorem algebraic : Cert.algebraic_KernelIdeal_ReferenceIdeal := by
  intro m ρ m' ρ' hpre hagree
  refine ⟨fun c => nodeOut m c, fun c => coordOut m c, Cert.KernelIdeal.Val.run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11, a12, a13, a14, a15, a16, a17⟩ := hagree c
  obtain ⟨h3, h4⟩ := inRange_of_pre m hpre c
  refine ⟨(h c).1.trans ?_, (h c).2.1.trans ?_, (h c).2.2⟩
  · rw [Cert.ReferenceIdeal.Read.val_main_v59_eq, a0, a2, a3, a4, a5, a6, a7, a8, a9, a10, a14, a15, a16, a17,
      Cert.ReferenceIdeal.RefVal.ref_node]
    unfold Cert.ReferenceIdeal.Read.val_main_v38
    rw [Cert.ReferenceIdeal.RefVal.ref_msg, ← Bridge.take_v6 _ _ h3, ← Bridge.take_v13 _ _ h4]
    rfl
  · rw [Cert.ReferenceIdeal.Read.val_main_v35_eq, a0, a1, a2, a3, a4, a5, a7, a8, a9, a10, a11, a12, a13]
    unfold Cert.ReferenceIdeal.Read.val_main_v35 Cert.ReferenceIdeal.Read.val_main_v32 Cert.ReferenceIdeal.Read.val_main_v31
    rw [Cert.ReferenceIdeal.RefVal.ref_cw, ← Bridge.take_v6 _ _ h3, ← Bridge.take_v13 _ _ h4]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
